-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S100000x256 : Shape := ⟨2, ![100000, 256]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S300000 : S_.BroadcastsInDim S300000 (![] : Fin 0 → Fin S300000.rank)
  reducesTo_S300000_S_d0 : S300000.ReducesTo [0] S_

variable [Facts]

def fn_part4 {F : FTy → Type} [FloatOps F] (main_arg3 : IVec S300000 32) (main_v66 : IVec S_ 1) (main_c_26 : IVec S_ 32) : IVec S_ 1 :=
  let main_v67 : IVec S300000 32 := broadcastInDim S300000 ![] bcast_S_S300000 main_c_26
  let main_v68 : IVec S300000 1 := cmpi .sge main_arg3 main_v67
  let main_c_27 : IVec S_ 1 := constantI S_ 1 1#1
  let main_v69 : IVec S_ 1 := (fun x v => Host.reduce IntOp.andi x v reducesTo_S300000_S_d0 h_S_) main_v68 main_c_27
  let main_v70 : IVec S_ 1 := andi main_v66 main_v69
  let main_c_28 : IVec S_ 32 := constantI S_ 32 100000#32
  let main_v71 : IVec S300000 32 := broadcastInDim S300000 ![] bcast_S_S300000 main_c_28
  let main_v72 : IVec S300000 1 := cmpi .slt main_arg3 main_v71
  let main_c_29 : IVec S_ 1 := constantI S_ 1 1#1
  let main_v73 : IVec S_ 1 := (fun x v => Host.reduce IntOp.andi x v reducesTo_S300000_S_d0 h_S_) main_v72 main_c_29
  let main_v74 : IVec S_ 1 := andi main_v70 main_v73
  main_v74

def fn_part3 {F : FTy → Type} [FloatOps F] (main_arg2 : IVec S300000 32) (main_arg3 : IVec S300000 32) (main_arg13 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 4294867296#32
  let main_v59 : IVec S300000 32 := broadcastInDim S300000 ![] bcast_S_S300000 main_c_22
  let main_v60 : IVec S300000 1 := cmpi .sge main_arg2 main_v59
  let main_c_23 : IVec S_ 1 := constantI S_ 1 1#1
  let main_v61 : IVec S_ 1 := (fun x v => Host.reduce IntOp.andi x v reducesTo_S300000_S_d0 h_S_) main_v60 main_c_23
  let main_v62 : IVec S_ 1 := andi main_v58 main_v61
  let main_c_24 : IVec S_ 32 := constantI S_ 32 100000#32
  let main_v63 : IVec S300000 32 := broadcastInDim S300000 ![] bcast_S_S300000 main_c_24
  let main_v64 : IVec S300000 1 := cmpi .slt main_arg2 main_v63
  let main_c_25 : IVec S_ 1 := constantI S_ 1 1#1
  let main_v65 : IVec S_ 1 := (fun x v => Host.reduce IntOp.andi x v reducesTo_S300000_S_d0 h_S_) main_v64 main_c_25
  let main_v66 : IVec S_ 1 := andi main_v62 main_v65
  let main_c_26 : IVec S_ 32 := constantI S_ 32 4294867296#32
  fn_part4 (F := F) main_arg3 main_v66 main_c_26

def fn_part2 {F : FTy → Type} [FloatOps F] (main_arg2 : IVec S300000 32) (main_arg3 : IVec S300000 32) (main_arg9 : FVec F S256 .f32) (main_arg10 : FVec F S256x256 .f32) (main_arg11 : FVec F S256 .f32) (main_arg12 : FVec F S256 .f32) (main_arg13 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg2 main_arg3 main_arg13 main_v48 main_v49 main_v50

def fn_part1 {F : FTy → Type} [FloatOps F] (main_arg2 : IVec S300000 32) (main_arg3 : IVec S300000 32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_arg13 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg3 main_arg9 main_arg10 main_arg11 main_arg12 main_arg13 main_v33

def fn {F : FTy → Type} [FloatOps F] (main_arg0 : FVec F S300000x256 .f32) (main_arg1 : FVec F S100000x256 .f32) (main_arg2 : IVec S300000 32) (main_arg3 : IVec S300000 32) (main_arg4 : FVec F S256x256 .f32) (main_arg5 : FVec F S256x256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256 .f32) (main_arg13 : FVec F S256 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg3 main_arg6 main_arg7 main_arg8 main_arg9 main_arg10 main_arg11 main_arg12 main_arg13 main_v13 main_v16
-- ==== Kernel.lean ====
abbrev S300000x256 : Shape := ⟨2, ![300000, 256]⟩
abbrev S100000x256 : Shape := ⟨2, ![100000, 256]⟩
abbrev S300000 : Shape := ⟨1, ![300000]⟩
abbrev S256x256 : Shape := ⟨2, ![256, 256]⟩
abbrev S256 : Shape := ⟨1, ![256]⟩
abbrev S256x512 : Shape := ⟨2, ![256, 512]⟩
abbrev S1x256 : Shape := ⟨2, ![1, 256]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S4000x256 : Shape := ⟨2, ![4000, 256]⟩
abbrev S4000x512 : Shape := ⟨2, ![4000, 512]⟩
abbrev S3000x256 : Shape := ⟨2, ![3000, 256]⟩
abbrev S3000 : Shape := ⟨1, ![3000]⟩
abbrev S3000x1 : Shape := ⟨2, ![3000, 1]⟩

abbrev nBuf : Space → Nat
  | .hbm => 78
  | .vmem => 23
  | .smem => 0
  | _ => 0

abbrev bufTy : (tb : Table) → Fin (tcTables nBuf tb) → BufTy
  | .hbm, ⟨0, _⟩ => ⟨S300000x256, .f32⟩
  | .hbm, ⟨1, _⟩ => ⟨S100000x256, .f32⟩
  | .hbm, ⟨2, _⟩ => ⟨S300000, .i32⟩
  | .hbm, ⟨3, _⟩ => ⟨S300000, .i32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x256, .f32⟩
  | .hbm, ⟨15, _⟩ => ⟨S256x256, .bf16⟩
  | .hbm, ⟨16, _⟩ => ⟨S256x256, .f32⟩
  | .hbm, ⟨17, _⟩ => ⟨S256x256, .f32⟩
  | .hbm, ⟨18, _⟩ => ⟨S256x512, .f32⟩
  | .hbm, ⟨19, _⟩ => ⟨S256x512, .bf16⟩
  | .hbm, ⟨20, _⟩ => ⟨S256x256, .f32⟩
  | .hbm, ⟨21, _⟩ => ⟨S256x256, .bf16⟩
  | .hbm, ⟨22, _⟩ => ⟨S256x256, .f32⟩
  | .hbm, ⟨23, _⟩ => ⟨S256x256, .bf16⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S100000x256, .f32⟩
  | .hbm, ⟨30, _⟩ => ⟨S100000x256, .f32⟩
  | .hbm, ⟨31, _⟩ => ⟨S_, .i32⟩
  | .hbm, ⟨32, _⟩ => ⟨S300000, .i32⟩
  | .hbm, ⟨33, _⟩ => ⟨S300000, .i1⟩
  | .hbm, ⟨34, _⟩ => ⟨S_, .i32⟩
  | .hbm, ⟨35, _⟩ => ⟨S300000, .i32⟩
  | .hbm, ⟨36, _⟩ => ⟨S300000, .i32⟩
  | .hbm, ⟨37, _⟩ => ⟨S300000, .i32⟩
  | .hbm, ⟨38, _⟩ => ⟨S300000x1, .i32⟩
  | .hbm, ⟨39, _⟩ => ⟨S1, .i32⟩
  | .hbm, ⟨40, _⟩ => ⟨S_, .i32⟩
  | .hbm, ⟨41, _⟩ => ⟨S300000x1, .i32⟩
  | .hbm, ⟨42, _⟩ => ⟨S300000x1, .i1⟩
  | .hbm, ⟨43, _⟩ => ⟨S1x1, .i32⟩
  | .hbm, ⟨44, _⟩ => ⟨S300000x1, .i32⟩
  | .hbm, ⟨45, _⟩ => ⟨S300000x1, .i1⟩
  | .hbm, ⟨46, _⟩ => ⟨S300000x1, .i1⟩
  | .hbm, ⟨47, _⟩ => ⟨S_, .i1⟩
  | .hbm, ⟨48, _⟩ => ⟨S300000, .i1⟩
  | .hbm, ⟨49, _⟩ => ⟨S300000x256, .f32⟩
  | .hbm, ⟨50, _⟩ => ⟨S300000x256, .i1⟩
  | .hbm, ⟨51, _⟩ => ⟨S_, .f32⟩
  | .hbm, ⟨52, _⟩ => ⟨S300000x256, .f32⟩
  | .hbm, ⟨53, _⟩ => ⟨S300000x256, .f32⟩
  | .hbm, ⟨54, _⟩ => ⟨S_, .i32⟩
  | .hbm, ⟨55, _⟩ => ⟨S300000, .i32⟩
  | .hbm, ⟨56, _⟩ => ⟨S300000, .i1⟩
  | .hbm, ⟨57, _⟩ => ⟨S_, .i32⟩
  | .hbm, ⟨58, _⟩ => ⟨S300000, .i32⟩
  | .hbm, ⟨59, _⟩ => ⟨S300000, .i32⟩
  | .hbm, ⟨60, _⟩ => ⟨S300000, .i32⟩
  | .hbm, ⟨61, _⟩ => ⟨S300000x1, .i32⟩
  | .hbm, ⟨62, _⟩ => ⟨S1, .i32⟩
  | .hbm, ⟨63, _⟩ => ⟨S_, .i32⟩
  | .hbm, ⟨64, _⟩ => ⟨S300000x1, .i32⟩
  | .hbm, ⟨65, _⟩ => ⟨S300000x1, .i1⟩
  | .hbm, ⟨66, _⟩ => ⟨S1x1, .i32⟩
  | .hbm, ⟨67, _⟩ => ⟨S300000x1, .i32⟩
  | .hbm, ⟨68, _⟩ => ⟨S300000x1, .i1⟩
  | .hbm, ⟨69, _⟩ => ⟨S300000x1, .i1⟩
  | .hbm, ⟨70, _⟩ => ⟨S_, .i1⟩
  | .hbm, ⟨71, _⟩ => ⟨S300000, .i1⟩
  | .hbm, ⟨72, _⟩ => ⟨S300000x256, .f32⟩
  | .hbm, ⟨73, _⟩ => ⟨S300000x256, .i1⟩
  | .hbm, ⟨74, _⟩ => ⟨S_, .f32⟩
  | .hbm, ⟨75, _⟩ => ⟨S300000x256, .f32⟩
  | .hbm, ⟨76, _⟩ => ⟨S300000x256, .f32⟩
  | .hbm, ⟨77, _⟩ => ⟨S300000x256, .f32⟩
  | .local _ .vmem, ⟨0, _⟩ => ⟨S4000x256, .f32⟩
  | .local _ .vmem, ⟨1, _⟩ => ⟨S4000x256, .f32⟩
  | .local _ .vmem, ⟨2, _⟩ => ⟨S256x512, .bf16⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S3000x256, .f32⟩
  | .local _ .vmem, ⟨9, _⟩ => ⟨S3000x256, .f32⟩
  | .local _ .vmem, ⟨10, _⟩ => ⟨S3000x256, .f32⟩
  | .local _ .vmem, ⟨11, _⟩ => ⟨S3000x256, .f32⟩
  | .local _ .vmem, ⟨12, _⟩ => ⟨S3000x256, .f32⟩
  | .local _ .vmem, ⟨13, _⟩ => ⟨S3000x256, .f32⟩
  | .local _ .vmem, ⟨14, _⟩ => ⟨S256x256, .bf16⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S3000x256, .f32⟩
  | .local _ .vmem, ⟨22, _⟩ => ⟨S3000x256, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15_0 : Ref sig .tc := ⟨.hbm, 29, rfl⟩
abbrev main_call0_v15_1 : Ref sig .tc := ⟨.hbm, 30, rfl⟩
abbrev main_call0_call0_c : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_c_0 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_c_1 : Ref sig .tc := ⟨.hbm, 39, rfl⟩
abbrev main_call0_call0_c_2 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_call0_c_3 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_v14 : Ref sig .tc := ⟨.hbm, 50, rfl⟩
abbrev main_call0_call0_cst : Ref sig .tc := ⟨.hbm, 51, rfl⟩
abbrev main_call0_call0_v15 : Ref sig .tc := ⟨.hbm, 52, rfl⟩
abbrev main_call0_v16 : Ref sig .tc := ⟨.hbm, 53, rfl⟩
abbrev main_call0_call1_c : Ref sig .tc := ⟨.hbm, 54, rfl⟩
abbrev main_call0_call1_v0 : Ref sig .tc := ⟨.hbm, 55, rfl⟩
abbrev main_call0_call1_v1 : Ref sig .tc := ⟨.hbm, 56, rfl⟩
abbrev main_call0_call1_c_0 : Ref sig .tc := ⟨.hbm, 57, rfl⟩
abbrev main_call0_call1_v2 : Ref sig .tc := ⟨.hbm, 58, rfl⟩
abbrev main_call0_call1_v3 : Ref sig .tc := ⟨.hbm, 59, rfl⟩
abbrev main_call0_call1_v4 : Ref sig .tc := ⟨.hbm, 60, rfl⟩
abbrev main_call0_call1_v5 : Ref sig .tc := ⟨.hbm, 61, rfl⟩
abbrev main_call0_call1_c_1 : Ref sig .tc := ⟨.hbm, 62, rfl⟩
abbrev main_call0_call1_c_2 : Ref sig .tc := ⟨.hbm, 63, rfl⟩
abbrev main_call0_call1_v6 : Ref sig .tc := ⟨.hbm, 64, rfl⟩
abbrev main_call0_call1_v7 : Ref sig .tc := ⟨.hbm, 65, rfl⟩
abbrev main_call0_call1_v8 : Ref sig .tc := ⟨.hbm, 66, rfl⟩
abbrev main_call0_call1_v9 : Ref sig .tc := ⟨.hbm, 67, rfl⟩
abbrev main_call0_call1_v10 : Ref sig .tc := ⟨.hbm, 68, rfl⟩
abbrev main_call0_call1_v11 : Ref sig .tc := ⟨.hbm, 69, rfl⟩
abbrev main_call0_call1_c_3 : Ref sig .tc := ⟨.hbm, 70, rfl⟩
abbrev main_call0_call1_v12 : Ref sig .tc := ⟨.hbm, 71, rfl⟩
abbrev main_call0_call1_v13 : Ref sig .tc := ⟨.hbm, 72, rfl⟩
abbrev main_call0_call1_v14 : Ref sig .tc := ⟨.hbm, 73, rfl⟩
abbrev main_call0_call1_cst : Ref sig .tc := ⟨.hbm, 74, rfl⟩
abbrev main_call0_call1_v15 : Ref sig .tc := ⟨.hbm, 75, rfl⟩
abbrev main_call0_v17 : Ref sig .tc := ⟨.hbm, 76, rfl⟩
abbrev main_v0 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg10_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem10_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S3000x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S256x256_S256x256_1_0 : S256x256.Transposes [1, 0] S256x256
  bitsLt_bf16_f32 : FTy.bits .bf16 < FTy.bits .f32
  concatenates_S256x256_S256x256_S256x512_d1 : Shape.Concatenates [S256x256, S256x256] S256x512 1
  shapeCasts_S256_S1x256 : S256.ShapeCasts S1x256
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  inb_S4000x256_S4000x256_0_0 : ∀ a, (![0, 0] : Fin 2 → Nat) a + S4000x256.size a ≤ S4000x256.size a
  h_S4000x256 : 0 < S4000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S4000x512_o0_0_S4000x256 : S4000x512.Slices ![0, 0] S4000x256
  slices_S4000x512_o0_256_S4000x256 : S4000x512.Slices ![0, 256] S4000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S3000x256_S3000x256_0_0 : ∀ a, (![0, 0] : Fin 2 → Nat) a + S3000x256.size a ≤ S3000x256.size a
  h_S3000x256 : 0 < S3000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S3000x256_S3000x256 : S3000x256.ShapeCasts S3000x256
  broadcasts_S1x256_S3000x256 : S1x256.Broadcasts S3000x256
  reduces_S3000x256_S3000 : S3000x256.Reduces [1] S3000
  shapeCasts_S3000_S3000x1 : S3000.ShapeCasts S3000x1
  broadcasts_S3000x1_S3000x256 : S3000x1.Broadcasts S3000x256
  gather_S100000x256_S300000x1_S300000x256_1_0_n_n_0_1_1256_wf : GatherDims.WF S100000x256 S300000x1 S300000x256 [1] [0] [] [0] [] 1 ![1, 256]
  dot_S4000x256_S256x512_S4000x512_1_0_0_1_n_n_wf : DotDims.WF S4000x256 S256x512 S4000x512 [1] [0] [0] [1] [] []
  dot_S3000x256_S256x256_S3000x256_1_0_0_1_n_n_wf : DotDims.WF S3000x256 S256x256 S3000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x256.size a ≤ S100000x256.size a
  hwx0_4 : ∀ i : grid0.Coords, EltTy.bits .f32 = 32 ∨ (Rect.block (s := S100000x256) S4000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x256.size a ≤ S300000x256.size a
  hwx1_0 : ∀ i : grid1.Coords, EltTy.bits .f32 = 32 ∨ (Rect.block (s := S300000x256) S3000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x256.size a ≤ S300000x256.size a
  hwx1_1 : ∀ i : grid1.Coords, EltTy.bits .f32 = 32 ∨ (Rect.block (s := S300000x256) S3000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x256.size a ≤ S300000x256.size a
  hwx1_2 : ∀ i : grid1.Coords, EltTy.bits .f32 = 32 ∨ (Rect.block (s := S300000x256) S3000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .bf16 = 32 ∨ (Rect.block (s := S256x256) S256x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S3000x256.size a ≤ S300000x256.size a
  hwx1_10 : ∀ i : grid1.Coords, EltTy.bits .f32 = 32 ∨ (Rect.block (s := S300000x256) S3000x256.size (cc1_transform_10 i) (hinb1_10 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S4000x256_S256x512_S4000x512_1_0_0_1_n_n : DotDims S4000x256 S256x512 S4000x512 where
  lhsContracting := [1]
  rhsContracting := [0]
  lhsNonContracting := [0]
  rhsNonContracting := [1]
  lhsBatch := []
  rhsBatch := []
  wf := dot_S4000x256_S256x512_S4000x512_1_0_0_1_n_n_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf

abbrev win0_0 : Pipeline.Window sig grid0 :=
  Pipeline.Window.ofSpec (Memref.whole main_arg1) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v15_0) S4000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v15_1) S4000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S3000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v16) S3000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v17) S3000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v11) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v9) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v12) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v13) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v14) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v0) S3000x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S300000x256 : Shape := ⟨2, ![300000, 256]⟩
abbrev S100000x256 : Shape := ⟨2, ![100000, 256]⟩
abbrev S300000 : Shape := ⟨1, ![300000]⟩
abbrev S256x256 : Shape := ⟨2, ![256, 256]⟩
abbrev S256 : Shape := ⟨1, ![256]⟩
abbrev S1x256 : Shape := ⟨2, ![1, 256]⟩
abbrev S_ : Shape := ⟨0, ![]⟩
abbrev S300000x1 : Shape := ⟨2, ![300000, 1]⟩

abbrev nBuf : Space → Nat
  | .hbm => 100
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S100000x256, .f32⟩
  | .hbm, ⟨2, _⟩ => ⟨S300000, .i32⟩
  | .hbm, ⟨3, _⟩ => ⟨S300000, .i32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256x256, .f32⟩
  | .hbm, ⟨15, _⟩ => ⟨S300000x256, .f32⟩
  | .hbm, ⟨16, _⟩ => ⟨S256x256, .f32⟩
  | .hbm, ⟨17, _⟩ => ⟨S100000x256, .f32⟩
  | .hbm, ⟨18, _⟩ => ⟨S256x256, .f32⟩
  | .hbm, ⟨19, _⟩ => ⟨S100000x256, .f32⟩
  | .hbm, ⟨20, _⟩ => ⟨S1x256, .f32⟩
  | .hbm, ⟨21, _⟩ => ⟨S100000x256, .f32⟩
  | .hbm, ⟨22, _⟩ => ⟨S100000x256, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S300000x256, .f32⟩
  | .hbm, ⟨33, _⟩ => ⟨S_, .i32⟩
  | .hbm, ⟨34, _⟩ => ⟨S300000, .i32⟩
  | .hbm, ⟨35, _⟩ => ⟨S300000, .i1⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S300000, .i32⟩
  | .hbm, ⟨40, _⟩ => ⟨S300000x1, .i32⟩
  | .hbm, ⟨41, _⟩ => ⟨S300000x256, .f32⟩
  | .hbm, ⟨42, _⟩ => ⟨S300000x256, .f32⟩
  | .hbm, ⟨43, _⟩ => ⟨S300000x256, .f32⟩
  | .hbm, ⟨44, _⟩ => ⟨S300000x256, .f32⟩
  | .hbm, ⟨45, _⟩ => ⟨S_, .f32⟩
  | .hbm, ⟨46, _⟩ => ⟨S300000x256, .f32⟩
  | .hbm, ⟨47, _⟩ => ⟨S300000x256, .f32⟩
  | .hbm, ⟨48, _⟩ => ⟨S_, .f32⟩
  | .hbm, ⟨49, _⟩ => ⟨S300000x256, .f32⟩
  | .hbm, ⟨50, _⟩ => ⟨S300000x256, .f32⟩
  | .hbm, ⟨51, _⟩ => ⟨S300000x256, .f32⟩
  | .hbm, ⟨52, _⟩ => ⟨S256x256, .f32⟩
  | .hbm, ⟨53, _⟩ => ⟨S300000x256, .f32⟩
  | .hbm, ⟨54, _⟩ => ⟨S1x256, .f32⟩
  | .hbm, ⟨55, _⟩ => ⟨S300000x256, .f32⟩
  | .hbm, ⟨56, _⟩ => ⟨S300000x256, .f32⟩
  | .hbm, ⟨57, _⟩ => ⟨S300000x256, .f32⟩
  | .hbm, ⟨58, _⟩ => ⟨S300000x256, .f32⟩
  | .hbm, ⟨59, _⟩ => ⟨S_, .f32⟩
  | .hbm, ⟨60, _⟩ => ⟨S300000x256, .f32⟩
  | .hbm, ⟨61, _⟩ => ⟨S300000x256, .f32⟩
  | .hbm, ⟨62, _⟩ => ⟨S_, .f32⟩
  | .hbm, ⟨63, _⟩ => ⟨S300000x256, .f32⟩
  | .hbm, ⟨64, _⟩ => ⟨S300000x256, .f32⟩
  | .hbm, ⟨65, _⟩ => ⟨S300000x256, .f32⟩
  | .hbm, ⟨66, _⟩ => ⟨S256x256, .f32⟩
  | .hbm, ⟨67, _⟩ => ⟨S300000x256, .f32⟩
  | .hbm, ⟨68, _⟩ => ⟨S1x256, .f32⟩
  | .hbm, ⟨69, _⟩ => ⟨S300000x256, .f32⟩
  | .hbm, ⟨70, _⟩ => ⟨S300000x256, .f32⟩
  | .hbm, ⟨71, _⟩ => ⟨S_, .f32⟩
  | .hbm, ⟨72, _⟩ => ⟨S300000, .f32⟩
  | .hbm, ⟨73, _⟩ => ⟨S300000x1, .f32⟩
  | .hbm, ⟨74, _⟩ => ⟨S_, .f32⟩
  | .hbm, ⟨75, _⟩ => ⟨S300000x1, .f32⟩
  | .hbm, ⟨76, _⟩ => ⟨S300000x1, .f32⟩
  | .hbm, ⟨77, _⟩ => ⟨S300000x256, .f32⟩
  | .hbm, ⟨78, _⟩ => ⟨S300000x256, .f32⟩
  | .hbm, ⟨79, _⟩ => ⟨S300000x256, .f32⟩
  | .hbm, ⟨80, _⟩ => ⟨S_, .f32⟩
  | .hbm, ⟨81, _⟩ => ⟨S300000, .f32⟩
  | .hbm, ⟨82, _⟩ => ⟨S300000x1, .f32⟩
  | .hbm, ⟨83, _⟩ => ⟨S_, .f32⟩
  | .hbm, ⟨84, _⟩ => ⟨S300000x1, .f32⟩
  | .hbm, ⟨85, _⟩ => ⟨S300000x1, .f32⟩
  | .hbm, ⟨86, _⟩ => ⟨S300000x256, .f32⟩
  | .hbm, ⟨87, _⟩ => ⟨S300000x256, .f32⟩
  | .hbm, ⟨88, _⟩ => ⟨S1x256, .f32⟩
  | .hbm, ⟨89, _⟩ => ⟨S300000x256, .f32⟩
  | .hbm, ⟨90, _⟩ => ⟨S300000x256, .f32⟩
  | .hbm, ⟨91, _⟩ => ⟨S_, .f32⟩
  | .hbm, ⟨92, _⟩ => ⟨S300000x1, .f32⟩
  | .hbm, ⟨93, _⟩ => ⟨S300000x1, .f32⟩
  | .hbm, ⟨94, _⟩ => ⟨S300000x1, .f32⟩
  | .hbm, ⟨95, _⟩ => ⟨S300000x256, .f32⟩
  | .hbm, ⟨96, _⟩ => ⟨S300000x256, .f32⟩
  | .hbm, ⟨97, _⟩ => ⟨S1x256, .f32⟩
  | .hbm, ⟨98, _⟩ => ⟨S300000x256, .f32⟩
  | .hbm, ⟨99, _⟩ => ⟨S300000x256, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst : Ref sig .tc := ⟨.hbm, 71, rfl⟩
abbrev main_v37 : Ref sig .tc := ⟨.hbm, 72, rfl⟩
abbrev main_v38 : Ref sig .tc := ⟨.hbm, 73, rfl⟩
abbrev main_cst_3 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_4 : Ref sig .tc := ⟨.hbm, 80, rfl⟩
abbrev main_v44 : Ref sig .tc := ⟨.hbm, 81, rfl⟩
abbrev main_v45 : Ref sig .tc := ⟨.hbm, 82, rfl⟩
abbrev main_cst_5 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_6 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  bcast_S1x256_S300000x256_0_1 : S1x256.BroadcastsInDim S300000x256 (![0, 1] : Fin 2 → Fin S300000x256.rank)
  reducesTo_S300000x256_S300000_d1 : S300000x256.ReducesTo [1] S300000
  h_S_ : 0 < S_.numel
  bcast_S_S300000x1 : S_.BroadcastsInDim S300000x1 (![] : Fin 0 → Fin S300000x1.rank)
  bcast_S300000x1_S300000x256_0_1 : S300000x1.BroadcastsInDim S300000x256 (![0, 1] : Fin 2 → Fin S300000x256.rank)
  dot_S300000x256_S256x256_S300000x256_1_0_0_1_n_n_wf : DotDims.WF S300000x256 S256x256 S300000x256 [1] [0] [0] [1] [] []
  dot_S100000x256_S256x256_S100000x256_1_0_0_1_n_n_wf : DotDims.WF S100000x256 S256x256 S100000x256 [1] [0] [0] [1] [] []
  gather_S100000x256_S300000x1_S300000x256_1_0_n_n_0_1_1256_wf : GatherDims.WF S100000x256 S300000x1 S300000x256 [1] [0] [] [0] [] 1 ![1, 256]

variable [Facts₀]

def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf

class Facts : Prop extends Facts₀ where

variable [Facts]
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.LibLayerNorm.lean ====
/-
  Layer normalisation of the rows of a matrix, read at an index, generic in the sizes.

  On the extended reals a row v of length n is normalised to (v[o] − μ)·(σ² + ε)^(−1/2)·g[o] + b[o], with μ the row's sum
  divided by N and σ² the sum of the squared deviations divided by N (N and ε extended reals: a program passes the
  floats it divides by and adds). This file defines that function (rowMean, rowVar, layerNorm) and shows that the two
  ways a program spells it over an R × C matrix read, at (p, q), as layerNorm of row p at q:
    · a kernel's vector dialect: multi-reduction over axis 1, shape cast to a column, divide by a splat, broadcast of the
      column, subtract, square, …, rsqrt, scale and shift by 1 × C rows broadcast over the matrix (kMean, kNorm);
    · the host's StableHLO: reduce with an add body, broadcast_in_dim of vectors and scalars, divide, …, rsqrt, scale
      and shift by length-C vectors broadcast through 1 × C (hMean, hNorm).
  The four chains are defined at any float family, so that a program's own text can be compared with them before
  values are chosen; the readings are at the ideal values. Both take the mean column as an argument, since programs compute
  it once and use it twice. Imports the library and
  the row-operation lemmas of LibRowOps.
-/
import Idealize.ShloMosaic.Lib.ValueIdx
import Idealize.ShloMosaic.Lib.ValueLayout
import Idealize.ShloMosaic.PureOps.Ideal.Laws
import proofs.«411138_j16844861735261_3_alg».proof.Proof.LibRowOps

noncomputable section

open scoped BigOperators

namespace Cert.LibLayerNorm

open Idealize.ShloMosaic Idealize.ShloMosaic.ValueIdx Cert.LibRowOps

/-- A row's mean: its sum divided by its length (given as an extended real). -/
def rowMean {n : ℕ} (N : EReal) (v : Fin n → EReal) : EReal := Ideal.div (∑ k, v k) N

/-- A row's biased variance about its mean. -/
def rowVar {n : ℕ} (N : EReal) (v : Fin n → EReal) : EReal :=
  Ideal.div (∑ k, (v k - rowMean N v) * (v k - rowMean N v)) N

/-- Layer normalisation of a row, with scale g and shift b. -/
def layerNorm {n : ℕ} (N ε : EReal) (v g b : Fin n → EReal) (o : Fin n) : EReal :=
  (v o - rowMean N v) * Ideal.rsqrt (rowVar N v + ε) * g o + b o

/-- A second shift added to the first comes out of the normalisation: a + (b + β) = (a + b) + β. -/
theorem layerNorm_shift {n : ℕ} (N ε : EReal) (v g b β : Fin n → EReal) (o : Fin n) :
    layerNorm N ε v g (fun o => b o + β o) o = layerNorm N ε v g b o + β o := by
  unfold layerNorm
  exact (add_assoc _ _ _).symm

/-- A vector's reciprocal square root, the kernel's or the host's, read at an index. -/
theorem rsqrt_apply {s : Shape} {φ : FTy} (a : FVec Ideal s φ) (i : s.Idx) : rsqrt a i = Ideal.rsqrt (a i) := rfl
theorem hostRsqrt_apply {s : Shape} {φ : FTy} (a : FVec Ideal s φ) (i : s.Idx) : Host.rsqrt a i = Ideal.rsqrt (a i) := rfl
theorem hostDivf_apply {s : Shape} {φ : FTy} (a b : FVec Ideal s φ) (i : s.Idx) : Host.divf a b i = Ideal.div (a i) (b i) := rfl

variable {R C : Nat} {F : FTy → Type} [FloatOps F]

/-! ## The kernel's spelling -/

section Kernel

variable (hred : (⟨2, ![R, C]⟩ : Shape).Reduces [1] ⟨1, ![R]⟩) (hφ : FKind.Formats .f32)
  (hacc : (0x00000000#32 : BitVec 32) = FKind.add.neutral .f32 hφ)
  (hcast : (⟨1, ![R]⟩ : Shape).ShapeCasts ⟨2, ![R, 1]⟩) (hcol : (⟨2, ![R, 1]⟩ : Shape).Broadcasts ⟨2, ![R, C]⟩)
  (hrow : (⟨2, ![1, C]⟩ : Shape).Broadcasts ⟨2, ![R, C]⟩)

/-- The rows' sums kept as a column and divided by the splat of the float with word nb. -/
def kMean (nb : BitVec 32) (v : FVec F ⟨2, ![R, C]⟩ .f32) : FVec F ⟨2, ![R, 1]⟩ .f32 :=
  divf (shapeCast ⟨2, ![R, 1]⟩ (multiReduction .add [1] ⟨1, ![R]⟩ v 0x00000000#32 hred hφ hacc) hcast)
    (broadcast ⟨2, ![R, 1]⟩ (Scalar.ofBits .f32 nb))

theorem kMean_apply (nb : BitVec 32) (v : FVec Ideal ⟨2, ![R, C]⟩ .f32) (p : Fin R) (z : Fin 1) :
    kMean hred hφ hacc hcast nb v (ix2 p z) = rowMean (Ideal.ofBits .f32 nb) fun k => v (ix2 p k) := by
  unfold kMean rowMean
  rw [divf_apply, shapeCast_col, multiReduction_row, broadcast_apply]
  rfl

/-- The rows normalised about the column mean, scaled and shifted by the rows g and b. -/
def kNorm (nb eb : BitVec 32) (v : FVec F ⟨2, ![R, C]⟩ .f32) (mean : FVec F ⟨2, ![R, 1]⟩ .f32)
    (g b : FVec F ⟨2, ![1, C]⟩ .f32) : FVec F ⟨2, ![R, C]⟩ .f32 :=
  addf (mulf (mulf (subf v (broadcastTo ⟨2, ![R, C]⟩ mean hcol))
      (broadcastTo ⟨2, ![R, C]⟩ (rsqrt (addf (kMean hred hφ hacc hcast nb
          (mulf (subf v (broadcastTo ⟨2, ![R, C]⟩ mean hcol)) (subf v (broadcastTo ⟨2, ![R, C]⟩ mean hcol))))
        (broadcast ⟨2, ![R, 1]⟩ (Scalar.ofBits .f32 eb)))) hcol))
    (broadcastTo ⟨2, ![R, C]⟩ g hrow)) (broadcastTo ⟨2, ![R, C]⟩ b hrow)

theorem kNorm_apply (nb eb : BitVec 32) (v : FVec Ideal ⟨2, ![R, C]⟩ .f32) (mean : FVec Ideal ⟨2, ![R, 1]⟩ .f32)
    (g b : FVec Ideal ⟨2, ![1, C]⟩ .f32)
    (hmean : ∀ p : Fin R, mean (ix2 p (0 : Fin 1)) = rowMean (Ideal.ofBits .f32 nb) fun k => v (ix2 p k))
    (p : Fin R) (q : Fin C) :
    kNorm hred hφ hacc hcast hcol hrow nb eb v mean g b (ix2 p q)
      = layerNorm (Ideal.ofBits .f32 nb) (Ideal.ofBits .f32 eb) (fun k => v (ix2 p k)) (fun k => g (ix2 (0 : Fin 1) k))
          (fun k => b (ix2 (0 : Fin 1) k)) q := by
  simp only [kNorm, layerNorm, rowVar, addf_apply, mulf_apply, subf_apply, rsqrt_apply, broadcast_apply, broadcastTo_col,
    broadcastTo_1b_ab_apply, kMean_apply, hmean]
  rfl

end Kernel

/-! ## The host's spelling -/

section Host

variable (hT : (⟨2, ![R, C]⟩ : Shape).ReducesTo [1] ⟨1, ![R]⟩) (hu : 0 < (⟨0, ![]⟩ : Shape).numel)
  (hred : (⟨2, ![R, C]⟩ : Shape).Reduces [1] ⟨1, ![R]⟩)
  (hc0 : (⟨1, ![R]⟩ : Shape).BroadcastsInDim ⟨2, ![R, 1]⟩ ![0])
  (hs : (⟨0, ![]⟩ : Shape).BroadcastsInDim ⟨2, ![R, 1]⟩ ![])
  (hcm : (⟨2, ![R, 1]⟩ : Shape).BroadcastsInDim ⟨2, ![R, C]⟩ ![0, 1])
  (hvr : (⟨1, ![C]⟩ : Shape).BroadcastsInDim ⟨2, ![1, C]⟩ ![1])
  (hrm : (⟨2, ![1, C]⟩ : Shape).BroadcastsInDim ⟨2, ![R, C]⟩ ![0, 1])

/-- The rows' sums (from the zero word) as a column, divided by the broadcast scalar with word nb. -/
def hMean (nb : BitVec 32) (v : FVec F ⟨2, ![R, C]⟩ .f32) : FVec F ⟨2, ![R, 1]⟩ .f32 :=
  Host.divf (broadcastInDim ⟨2, ![R, 1]⟩ ![0] hc0 (Host.reduceAdd v (constant (F := F) ⟨0, ![]⟩ .f32 0x00000000#32) hT hu))
    (broadcastInDim ⟨2, ![R, 1]⟩ ![] hs (constant (F := F) ⟨0, ![]⟩ .f32 nb))

include hred in
theorem hMean_apply (nb : BitVec 32) (v : FVec Ideal ⟨2, ![R, C]⟩ .f32) (p : Fin R) (z : Fin 1) :
    hMean hT hu hc0 hs nb v (ix2 p z) = rowMean (Ideal.ofBits .f32 nb) fun k => v (ix2 p k) := by
  unfold hMean rowMean
  rw [hostDivf_apply, broadcastInDim_col, hostReduceAdd_row_zero v hT hu hred, broadcastInDim_scalar]
  rfl

/-- The rows normalised about the column mean, scaled and shifted by the vectors g and b. -/
def hNorm (nb eb : BitVec 32) (v : FVec F ⟨2, ![R, C]⟩ .f32) (mean : FVec F ⟨2, ![R, 1]⟩ .f32)
    (g b : FVec F ⟨1, ![C]⟩ .f32) : FVec F ⟨2, ![R, C]⟩ .f32 :=
  addf (mulf (mulf (subf v (broadcastInDim ⟨2, ![R, C]⟩ ![0, 1] hcm mean))
      (broadcastInDim ⟨2, ![R, C]⟩ ![0, 1] hcm (Host.rsqrt (addf (hMean hT hu hc0 hs nb
          (mulf (subf v (broadcastInDim ⟨2, ![R, C]⟩ ![0, 1] hcm mean)) (subf v (broadcastInDim ⟨2, ![R, C]⟩ ![0, 1] hcm mean))))
        (broadcastInDim ⟨2, ![R, 1]⟩ ![] hs (constant (F := F) ⟨0, ![]⟩ .f32 eb))))))
    (broadcastInDim ⟨2, ![R, C]⟩ ![0, 1] hrm (broadcastInDim ⟨2, ![1, C]⟩ ![1] hvr g)))
    (broadcastInDim ⟨2, ![R, C]⟩ ![0, 1] hrm (broadcastInDim ⟨2, ![1, C]⟩ ![1] hvr b))

include hred in
theorem hNorm_apply (nb eb : BitVec 32) (v : FVec Ideal ⟨2, ![R, C]⟩ .f32) (mean : FVec Ideal ⟨2, ![R, 1]⟩ .f32)
    (g b : FVec Ideal ⟨1, ![C]⟩ .f32)
    (hmean : ∀ p : Fin R, mean (ix2 p (0 : Fin 1)) = rowMean (Ideal.ofBits .f32 nb) fun k => v (ix2 p k))
    (p : Fin R) (q : Fin C) :
    hNorm hT hu hc0 hs hcm hvr hrm nb eb v mean g b (ix2 p q)
      = layerNorm (Ideal.ofBits .f32 nb) (Ideal.ofBits .f32 eb) (fun k => v (ix2 p k)) (fun k => g (ix1 k))
          (fun k => b (ix1 k)) q := by
  have hdev : ∀ k : Fin C, subf v (broadcastInDim ⟨2, ![R, C]⟩ ![0, 1] hcm mean) (ix2 p k)
      = v (ix2 p k) - rowMean (Ideal.ofBits .f32 nb) fun k => v (ix2 p k) := fun k => by
    rw [subf_apply, broadcastInDim_col_mat, hmean]
  have hvar : hMean hT hu hc0 hs nb
      (mulf (subf v (broadcastInDim ⟨2, ![R, C]⟩ ![0, 1] hcm mean)) (subf v (broadcastInDim ⟨2, ![R, C]⟩ ![0, 1] hcm mean)))
        (ix2 p (0 : Fin 1))
      = rowVar (Ideal.ofBits .f32 nb) fun k => v (ix2 p k) := by
    rw [hMean_apply (hred := hred)]
    unfold rowVar
    refine congrArg (Ideal.div · _) (Finset.sum_congr rfl fun k _ => ?_)
    show subf v _ (ix2 p k) * subf v _ (ix2 p k) = _
    rw [hdev]
  unfold hNorm layerNorm
  show subf v _ (ix2 p q) * broadcastInDim _ _ hcm (Host.rsqrt _) (ix2 p q) * broadcastInDim _ _ hrm _ (ix2 p q)
      + broadcastInDim _ _ hrm _ (ix2 p q) = _
  rw [hdev, broadcastInDim_col_mat, broadcastInDim_row_mat, broadcastInDim_row_mat, broadcastInDim_vec_row,
    broadcastInDim_vec_row, hostRsqrt_apply, addf_apply, hvar, broadcastInDim_scalar]
  rfl

end Host

end Cert.LibLayerNorm

end
-- ==== Proof.EdgeSpec.lean ====
/-
  What one edge's row of the result is, on the extended reals.

  An edge e has a feature row x (256 entries), and two rows s and d taken from the two node projections at the edge's
  source and destination nodes. With T_e, T_1, T_2 the three weight matrices as the programs hold them (entry (k, q): input
  coordinate k, output coordinate q) the row goes through
      u[h]  = (∑_k x[k] · T_e[k, h]) + s[h] + d[h]
      a     = silu u,           silu t = t · (1 / (1 + e^(−t)))
      v[h]  = (∑_k a[k] · T_1[k, h]) + b_1[h]
      c     = silu v
      o[q]  = (∑_k c[k] · T_2[k, q]) + b_2[q]
      out[q] = g[q] · (o[q] − μ) · (σ² + ε)^(−1/2) + β[q],   μ = (∑ o) / N,  σ² = (∑ (o − μ)²) / N.
  N and ε are the two float words both programs carry (256.0 and the single-precision value nearest 1e-5); they are
  never evaluated. The node projections are plain products with a transposed weight matrix; the kernel forms both at
  once against the two transposed matrices laid side by side (256 × 512) and cuts the product in two, adding the bias row
  to the right half.
-/
import Idealize.ShloMosaic.Lib.ValueIdx
import Idealize.ShloMosaic.PureOps.Ideal.Laws
import proofs.«411138_j16844861735261_3_alg».proof.Proof.LibPlainDot
import proofs.«411138_j16844861735261_3_alg».proof.Proof.LibRowOps
import proofs.«411138_j16844861735261_3_alg».proof.Proof.LibLayerNorm

noncomputable section

open scoped BigOperators

namespace Cert.EdgeSpec

open Idealize.ShloMosaic Idealize.ShloMosaic.ValueIdx Cert.LibLayerNorm

/-- An R × C matrix of extended reals, by index. -/
abbrev Mat (R C : Nat) := (⟨2, ![R, C]⟩ : Shape).Idx → EReal

/-- The float word of 256.0, the length both programs divide a row's sum by. -/
abbrev nWord : BitVec 32 := 0x43800000#32
/-- The float word both programs add under the reciprocal square root. -/
abbrev epsWord : BitVec 32 := 0x3727C5AC#32

/-- x · sigmoid x on the extended reals. -/
def silu (t : EReal) : EReal := t * Ideal.logistic t

/-- The edge's projected row plus the two node rows: (∑_k x[k] · T[k, h]) + s[h] + d[h]. -/
def hidden (x s d : Fin 256 → EReal) (T : Mat 256 256) (h : Fin 256) : EReal :=
  (∑ k : Fin 256, x k * T (ix2 k h)) + s h + d h

/-- A linear layer on a row: (∑_k a[k] · T[k, h]) + b[h]. -/
def layer (a : Fin 256 → EReal) (T : Mat 256 256) (b : Fin 256 → EReal) (h : Fin 256) : EReal :=
  (∑ k : Fin 256, a k * T (ix2 k h)) + b h

/-- Normalisation of a row about its mean, scaled by g and shifted by β, multiplied in the order
    g · (o − μ) · (σ² + ε)^(−1/2) + β. -/
def normRow (N ε : EReal) (o g β : Fin 256 → EReal) (q : Fin 256) : EReal :=
  g q * (o q - rowMean N o) * Ideal.rsqrt (rowVar N o + ε) + β q

/-- The row before normalisation: two linear layers with silu between and before them. -/
def preNorm (x s d : Fin 256 → EReal) (Te T1 T2 : Mat 256 256) (b1 b2 : Fin 256 → EReal) : Fin 256 → EReal :=
  layer (fun k => silu (layer (fun k => silu (hidden x s d Te k)) T1 b1 k)) T2 b2

/-- One edge's row of the result. -/
def headRow (x s d : Fin 256 → EReal) (Te T1 T2 : Mat 256 256) (b1 b2 g β : Fin 256 → EReal) : Fin 256 → EReal :=
  normRow (Ideal.ofBits .f32 nWord) (Ideal.ofBits .f32 epsWord) (preNorm x s d Te T1 T2 b1 b2) g β

/-- The result over R edges at once: row (y 0) of the three row-indexed matrices through `headRow`. -/
def head {R : Nat} (X S D : Mat R 256) (Te T1 T2 : Mat 256 256) (b1 b2 g β : Fin 256 → EReal) : Mat R 256 :=
  fun y => headRow (fun k => X (ix2 (y 0) k)) (fun k => S (ix2 (y 0) k)) (fun k => D (ix2 (y 0) k)) Te T1 T2 b1 b2 g β (y 1)

theorem head_ix2 {R : Nat} (X S D : Mat R 256) (Te T1 T2 : Mat 256 256) (b1 b2 g β : Fin 256 → EReal) (p : Fin R) (q : Fin 256) :
    head X S D Te T1 T2 b1 b2 g β (ix2 p q)
      = headRow (fun k => X (ix2 p k)) (fun k => S (ix2 p k)) (fun k => D (ix2 p k)) Te T1 T2 b1 b2 g β q := rfl

/-- A 1 × 256 row as a function of its column. -/
def row (r : Mat 1 256) : Fin 256 → EReal := fun q => r (ix2 (0 : Fin 1) q)

/-- A length-256 vector as a function of its position. -/
def vec (v : (⟨1, ![256]⟩ : Shape).Idx → EReal) : Fin 256 → EReal := fun q => v (ix1 q)

/-- Column q of the left half of a 256 × 512 matrix. -/
def colL (q : Fin 256) : Fin 512 := ⟨q.val, by omega⟩
/-- Column q of the right half of a 256 × 512 matrix. -/
def colR (q : Fin 256) : Fin 512 := ⟨256 + q.val, by omega⟩

/-- The left half of X · T for T of 256 × 512: entry (p, q) = ∑_k X[p, k] · T[k, q]. -/
def projL {R : Nat} (X : Mat R 256) (T : Mat 256 512) : Mat R 256 :=
  fun y => ∑ k : Fin 256, X (ix2 (y 0) k) * T (ix2 k (colL (y 1)))

/-- The right half of X · T plus a bias row: entry (p, q) = (∑_k X[p, k] · T[k, 256 + q]) + b[q]. -/
def projR {R : Nat} (X : Mat R 256) (T : Mat 256 512) (b : Fin 256 → EReal) : Mat R 256 :=
  fun y => (∑ k : Fin 256, X (ix2 (y 0) k) * T (ix2 k (colR (y 1)))) + b (y 1)

theorem projL_ix2 {R : Nat} (X : Mat R 256) (T : Mat 256 512) (p : Fin R) (q : Fin 256) :
    projL X T (ix2 p q) = ∑ k : Fin 256, X (ix2 p k) * T (ix2 k (colL q)) := rfl

theorem projR_ix2 {R : Nat} (X : Mat R 256) (T : Mat 256 512) (b : Fin 256 → EReal) (p : Fin R) (q : Fin 256) :
    projR X T b (ix2 p q) = (∑ k : Fin 256, X (ix2 p k) * T (ix2 k (colR q))) + b q := rfl

end Cert.EdgeSpec

end
-- ==== Proof.RefValue.lean ====
/-
  The reference's result, index by index: its last stage read back through the stages before it, down to the edge's
  row, the two gathered node rows and the transposed weights, as one edge's row through `Cert.EdgeSpec.headRow`. The host's
  dots are plain sums over the contracted coordinate, its two silu calls multiply by 1 / (1 + e^(−t)) spelled out, its row sums
  start from the zero word, and the bias, scale and shift vectors are broadcast through a 1 × 256 row. The two gathers are
  not opened: the gathered arrays enter as they are. The two node tables the gathers read are plain products with a
  transposed weight matrix, the destination table with the bias added along each row.
-/
import proofs.«411138_j16844861735261_3_alg».proof.Proof.Gen.ReferenceIdeal.Run
import proofs.«411138_j16844861735261_3_alg».proof.Proof.Gen.ReferenceIdeal.Read
import proofs.«411138_j16844861735261_3_alg».proof.Proof.EdgeSpec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.ValueIdx Cert.ReferenceIdeal Cert.ReferenceIdeal.Gen Cert.ReferenceIdeal.Read
  Cert.EdgeSpec Cert.LibLayerNorm

/-! ## The two node tables -/

/-- The source-node table: node features times the transposed source weights. -/
theorem src_table (x1 : (⟨S100000x256, .f32⟩ : BufTy).Contents (Elt Ideal)) (x5 : (⟨S256x256, .f32⟩ : BufTy).Contents (Elt Ideal)) :
    val_main_v3 (F := Ideal) x1 x5
      = Cert.LibPlainDot.matProd (M := 100000) (K := 256) (N := 256) x1 (val_main_v2 (F := Ideal) x5) := by
  unfold val_main_v3
  exact Cert.LibPlainDot.dotGeneral_eq_matProd dot_S100000x256_S256x256_S100000x256_1_0_0_1_n_n rfl rfl rfl rfl rfl rfl none .single x1 _

/-- A length-256 vector spread through a 1 × 256 row over an R × 256 matrix reads, at (p, q), the vector at q. -/
theorem vec_row_read {R : Nat} (v : (⟨1, ![256]⟩ : Shape).Idx → EReal)
    (hvr : (⟨1, ![256]⟩ : Shape).BroadcastsInDim ⟨2, ![1, 256]⟩ ![1])
    (hrm : (⟨2, ![1, 256]⟩ : Shape).BroadcastsInDim ⟨2, ![R, 256]⟩ ![0, 1]) (p : Fin R) (q : Fin 256) :
    broadcastInDim ⟨2, ![R, 256]⟩ ![0, 1] hrm (broadcastInDim ⟨2, ![1, 256]⟩ ![1] hvr v) (ix2 p q) = vec v q := by
  rw [Cert.LibRowOps.broadcastInDim_row_mat, Cert.LibRowOps.broadcastInDim_vec_row]
  rfl

/-- The destination-node table: node features times the transposed destination weights, plus the bias along each row. -/
theorem dst_table (x1 : (⟨S100000x256, .f32⟩ : BufTy).Contents (Elt Ideal)) (x6 : (⟨S256x256, .f32⟩ : BufTy).Contents (Elt Ideal))
    (x7 : (⟨S256, .f32⟩ : BufTy).Contents (Elt Ideal)) :
    val_main_v8 (F := Ideal) x1 x6 x7
      = fun y => Cert.LibPlainDot.matProd (M := 100000) (K := 256) (N := 256) x1 (val_main_v4 (F := Ideal) x6) y + vec x7 (y 1) := by
  have h5 : val_main_v5 (F := Ideal) x1 x6
      = Cert.LibPlainDot.matProd (M := 100000) (K := 256) (N := 256) x1 (val_main_v4 (F := Ideal) x6) := by
    unfold val_main_v5
    exact Cert.LibPlainDot.dotGeneral_eq_matProd dot_S100000x256_S256x256_S100000x256_1_0_0_1_n_n rfl rfl rfl rfl rfl rfl none .single x1 _
  funext y
  obtain ⟨p, q, rfl⟩ : ∃ (p : Fin 100000) (q : Fin 256), y = ix2 p q := ⟨y 0, y 1, eq_ix2 y⟩
  rw [val_main_v8_apply, h5]
  have h7 : val_main_v7 (F := Ideal) x7 (ix2 p q) = vec x7 q :=
    vec_row_read x7 bcast_S256_S1x256_1 bcast_S1x256_S100000x256_0_1 p q
  rw [h7]
  rfl

/-! ## The edge rows, stage by stage -/

section Stages

variable (x0 : (⟨S300000x256, .f32⟩ : BufTy).Contents (Elt Ideal)) (x1 : (⟨S100000x256, .f32⟩ : BufTy).Contents (Elt Ideal))
  (x2 x3 : (⟨S300000, .i32⟩ : BufTy).Contents (Elt Ideal)) (x4 x5 x6 : (⟨S256x256, .f32⟩ : BufTy).Contents (Elt Ideal))
  (x7 : (⟨S256, .f32⟩ : BufTy).Contents (Elt Ideal)) (x8 : (⟨S256x256, .f32⟩ : BufTy).Contents (Elt Ideal))
  (x9 : (⟨S256, .f32⟩ : BufTy).Contents (Elt Ideal)) (x10 : (⟨S256x256, .f32⟩ : BufTy).Contents (Elt Ideal))
  (x11 x12 x13 : (⟨S256, .f32⟩ : BufTy).Contents (Elt Ideal))

/-- The host's silu, t · (1 / (1 + e^(−t))) with both ones the float word of 1.0, is `silu`. -/
theorem silu_spelled (t : EReal) :
    t * Ideal.div (Ideal.ofBits .f32 0x3F800000#32) (Ideal.ofBits .f32 0x3F800000#32 + Ideal.exp (-t)) = silu t := by
  rw [Ideal.ofBits_one_f32]
  rfl

/-- The first dot plus the two gathered rows: the hidden row of edge p. -/
theorem v24_read (p : Fin 300000) (q : Fin 256) :
    val_main_v24 (F := Ideal) x0 x1 x2 x3 x4 x5 x6 x7 (ix2 p q) = hidden (fun k => x0 (ix2 p k)) (fun k => val_main_v15 (F := Ideal) x1 x2 x5 (ix2 p k)) (fun k => val_main_v23 (F := Ideal) x1 x3 x6 x7 (ix2 p k)) (val_main_v0 (F := Ideal) x4) q := by
  have h1 : val_main_v1 (F := Ideal) x0 x4
      = Cert.LibPlainDot.matProd (M := 300000) (K := 256) (N := 256) x0 (val_main_v0 (F := Ideal) x4) := by
    unfold val_main_v1
    exact Cert.LibPlainDot.dotGeneral_eq_matProd dot_S300000x256_S256x256_S300000x256_1_0_0_1_n_n rfl rfl rfl rfl rfl rfl none .single x0 _
  rw [val_main_v24_apply, val_main_v16_apply, h1]
  rfl

/-- The first silu call. -/
theorem v25_read (p : Fin 300000) (q : Fin 256) :
    val_main_v25 (F := Ideal) x0 x1 x2 x3 x4 x5 x6 x7 (ix2 p q) = silu (hidden (fun k => x0 (ix2 p k)) (fun k => val_main_v15 (F := Ideal) x1 x2 x5 (ix2 p k)) (fun k => val_main_v23 (F := Ideal) x1 x3 x6 x7 (ix2 p k)) (val_main_v0 (F := Ideal) x4) q) := by
  rw [val_main_v25_apply, val_main_call0_v5_apply, val_main_call0_v4_apply, val_main_call0_cst_0_apply,
    val_main_call0_v3_apply, val_main_call0_v2_apply, val_main_call0_cst_apply, val_main_call0_v1_apply,
    val_main_call0_v0_apply, v24_read]
  exact silu_spelled _

/-- The second dot plus its bias: the first linear layer. -/
theorem v30_read (p : Fin 300000) (q : Fin 256) :
    val_main_v30 (F := Ideal) x0 x1 x2 x3 x4 x5 x6 x7 x8 x9 (ix2 p q) = layer (fun k => silu (hidden (fun k => x0 (ix2 p k)) (fun k => val_main_v15 (F := Ideal) x1 x2 x5 (ix2 p k)) (fun k => val_main_v23 (F := Ideal) x1 x3 x6 x7 (ix2 p k)) (val_main_v0 (F := Ideal) x4) k)) (val_main_v26 (F := Ideal) x8) (vec x9) q := by
  have h27 : val_main_v27 (F := Ideal) x0 x1 x2 x3 x4 x5 x6 x7 x8
      = Cert.LibPlainDot.matProd (M := 300000) (K := 256) (N := 256) (val_main_v25 (F := Ideal) x0 x1 x2 x3 x4 x5 x6 x7) (val_main_v26 (F := Ideal) x8) := by
    unfold val_main_v27
    exact Cert.LibPlainDot.dotGeneral_eq_matProd dot_S300000x256_S256x256_S300000x256_1_0_0_1_n_n rfl rfl rfl rfl rfl rfl none .single _ _
  have h29 : val_main_v29 (F := Ideal) x9 (ix2 p q) = vec x9 q :=
    vec_row_read x9 bcast_S256_S1x256_1 bcast_S1x256_S300000x256_0_1 p q
  rw [val_main_v30_apply, h27, h29, Cert.LibPlainDot.matProd_ix2]
  simp only [v25_read]
  rfl

/-- The second silu call. -/
theorem v31_read (p : Fin 300000) (q : Fin 256) :
    val_main_v31 (F := Ideal) x0 x1 x2 x3 x4 x5 x6 x7 x8 x9 (ix2 p q) = silu (layer (fun k => silu (hidden (fun k => x0 (ix2 p k)) (fun k => val_main_v15 (F := Ideal) x1 x2 x5 (ix2 p k)) (fun k => val_main_v23 (F := Ideal) x1 x3 x6 x7 (ix2 p k)) (val_main_v0 (F := Ideal) x4) k)) (val_main_v26 (F := Ideal) x8) (vec x9) q) := by
  rw [val_main_v31_apply, val_main_call1_v5_apply, val_main_call1_v4_apply, val_main_call1_cst_0_apply,
    val_main_call1_v3_apply, val_main_call1_v2_apply, val_main_call1_cst_apply, val_main_call1_v1_apply,
    val_main_call1_v0_apply, v30_read]
  exact silu_spelled _

/-- The third dot plus its bias: the row before normalisation. -/
theorem v36_read (p : Fin 300000) (q : Fin 256) :
    val_main_v36 (F := Ideal) x0 x1 x2 x3 x4 x5 x6 x7 x8 x9 x10 x11 (ix2 p q) = preNorm (fun k => x0 (ix2 p k)) (fun k => val_main_v15 (F := Ideal) x1 x2 x5 (ix2 p k)) (fun k => val_main_v23 (F := Ideal) x1 x3 x6 x7 (ix2 p k)) (val_main_v0 (F := Ideal) x4) (val_main_v26 (F := Ideal) x8) (val_main_v32 (F := Ideal) x10) (vec x9) (vec x11) q := by
  have h33 : val_main_v33 (F := Ideal) x0 x1 x2 x3 x4 x5 x6 x7 x8 x9 x10
      = Cert.LibPlainDot.matProd (M := 300000) (K := 256) (N := 256) (val_main_v31 (F := Ideal) x0 x1 x2 x3 x4 x5 x6 x7 x8 x9) (val_main_v32 (F := Ideal) x10) := by
    unfold val_main_v33
    exact Cert.LibPlainDot.dotGeneral_eq_matProd dot_S300000x256_S256x256_S300000x256_1_0_0_1_n_n rfl rfl rfl rfl rfl rfl none .single _ _
  have h35 : val_main_v35 (F := Ideal) x11 (ix2 p q) = vec x11 q :=
    vec_row_read x11 bcast_S256_S1x256_1 bcast_S1x256_S300000x256_0_1 p q
  rw [val_main_v36_apply, h33, h35, Cert.LibPlainDot.matProd_ix2]
  simp only [v31_read]
  rfl

/-! ## The normalisation -/

theorem hred36 : S300000x256.Reduces [1] S300000 := by decide

/-- The mean column is the row's mean. -/
theorem v40_read (p : Fin 300000) (z : Fin 1) :
    val_main_v40 (F := Ideal) x0 x1 x2 x3 x4 x5 x6 x7 x8 x9 x10 x11 (ix2 p z) = rowMean (Ideal.ofBits .f32 nWord) (fun k => val_main_v36 (F := Ideal) x0 x1 x2 x3 x4 x5 x6 x7 x8 x9 x10 x11 (ix2 p k)) :=
  hMean_apply (R := 300000) (C := 256) (hT := reducesTo_S300000x256_S300000_d1) (hu := h_S_) (hred := hred36)
    (hc0 := bcast_S300000_S300000x1_0) (hs := bcast_S_S300000x1) nWord (val_main_v36 (F := Ideal) x0 x1 x2 x3 x4 x5 x6 x7 x8 x9 x10 x11) p z

/-- The deviations from the mean (the program forms them twice, from two broadcasts of one mean column). -/
theorem v42_read (p : Fin 300000) (q : Fin 256) :
    val_main_v42 (F := Ideal) x0 x1 x2 x3 x4 x5 x6 x7 x8 x9 x10 x11 (ix2 p q)
      = val_main_v36 (F := Ideal) x0 x1 x2 x3 x4 x5 x6 x7 x8 x9 x10 x11 (ix2 p q) - rowMean (Ideal.ofBits .f32 nWord) (fun k => val_main_v36 (F := Ideal) x0 x1 x2 x3 x4 x5 x6 x7 x8 x9 x10 x11 (ix2 p k)) := by
  rw [val_main_v42_apply]
  unfold val_main_v41
  rw [Cert.LibRowOps.broadcastInDim_col_mat, v40_read]
  rfl

theorem v49_read (p : Fin 300000) (q : Fin 256) :
    val_main_v49 (F := Ideal) x0 x1 x2 x3 x4 x5 x6 x7 x8 x9 x10 x11 (ix2 p q)
      = val_main_v36 (F := Ideal) x0 x1 x2 x3 x4 x5 x6 x7 x8 x9 x10 x11 (ix2 p q) - rowMean (Ideal.ofBits .f32 nWord) (fun k => val_main_v36 (F := Ideal) x0 x1 x2 x3 x4 x5 x6 x7 x8 x9 x10 x11 (ix2 p k)) := by
  rw [val_main_v49_apply]
  unfold val_main_v48
  rw [Cert.LibRowOps.broadcastInDim_col_mat, v40_read]
  rfl

/-- The variance column is the row's variance. -/
theorem v47_read (p : Fin 300000) (z : Fin 1) :
    val_main_v47 (F := Ideal) x0 x1 x2 x3 x4 x5 x6 x7 x8 x9 x10 x11 (ix2 p z) = rowVar (Ideal.ofBits .f32 nWord) (fun k => val_main_v36 (F := Ideal) x0 x1 x2 x3 x4 x5 x6 x7 x8 x9 x10 x11 (ix2 p k)) := by
  have h : val_main_v47 (F := Ideal) x0 x1 x2 x3 x4 x5 x6 x7 x8 x9 x10 x11 (ix2 p z)
      = rowMean (Ideal.ofBits .f32 nWord) (fun k => val_main_v43 (F := Ideal) x0 x1 x2 x3 x4 x5 x6 x7 x8 x9 x10 x11 (ix2 p k)) :=
    hMean_apply (R := 300000) (C := 256) (hT := reducesTo_S300000x256_S300000_d1) (hu := h_S_) (hred := hred36)
      (hc0 := bcast_S300000_S300000x1_0) (hs := bcast_S_S300000x1) nWord (val_main_v43 (F := Ideal) x0 x1 x2 x3 x4 x5 x6 x7 x8 x9 x10 x11) p z
  rw [h]
  unfold rowVar rowMean
  refine congrArg (Ideal.div · _) (Finset.sum_congr rfl fun k _ => ?_)
  beta_reduce
  rw [val_main_v43_apply, v42_read]
  rfl

/-- The reciprocal square root of the variance plus ε, spread over the row. -/
theorem v56_read (p : Fin 300000) (q : Fin 256) :
    val_main_v56 (F := Ideal) x0 x1 x2 x3 x4 x5 x6 x7 x8 x9 x10 x11 (ix2 p q) = Ideal.rsqrt (rowVar (Ideal.ofBits .f32 nWord) (fun k => val_main_v36 (F := Ideal) x0 x1 x2 x3 x4 x5 x6 x7 x8 x9 x10 x11 (ix2 p k)) + (Ideal.ofBits .f32 epsWord)) := by
  unfold val_main_v56
  rw [Cert.LibRowOps.broadcastInDim_col_mat, val_main_v55_apply, val_main_v54_apply, v47_read, val_main_v53_apply,
    val_main_cst_6_apply]
  rfl

/-- The last stage in terms of the row before normalisation. -/
theorem v60_norm (p : Fin 300000) (q : Fin 256) :
    val_main_v60 (F := Ideal) x0 x1 x2 x3 x4 x5 x6 x7 x8 x9 x10 x11 x12 x13 (ix2 p q)
      = normRow (Ideal.ofBits .f32 nWord) (Ideal.ofBits .f32 epsWord) (fun k => val_main_v36 (F := Ideal) x0 x1 x2 x3 x4 x5 x6 x7 x8 x9 x10 x11 (ix2 p k)) (vec x12) (vec x13) q := by
  have h51 : val_main_v51 (F := Ideal) x12 (ix2 p q) = vec x12 q :=
    vec_row_read x12 bcast_S256_S1x256_1 bcast_S1x256_S300000x256_0_1 p q
  have h59 : val_main_v59 (F := Ideal) x13 (ix2 p q) = vec x13 q :=
    vec_row_read x13 bcast_S256_S1x256_1 bcast_S1x256_S300000x256_0_1 p q
  rw [val_main_v60_apply, val_main_v57_apply, val_main_v52_apply, h51, h59, v49_read, v56_read]
  rfl

/-- The last stage at (p, q) is edge p's row through `headRow`. -/
theorem v60_read (p : Fin 300000) (q : Fin 256) :
    val_main_v60 (F := Ideal) x0 x1 x2 x3 x4 x5 x6 x7 x8 x9 x10 x11 x12 x13 (ix2 p q)
      = headRow (fun k => x0 (ix2 p k)) (fun k => val_main_v15 (F := Ideal) x1 x2 x5 (ix2 p k)) (fun k => val_main_v23 (F := Ideal) x1 x3 x6 x7 (ix2 p k)) (val_main_v0 (F := Ideal) x4) (val_main_v26 (F := Ideal) x8) (val_main_v32 (F := Ideal) x10) (vec x9) (vec x11) (vec x12) (vec x13) q := by
  rw [v60_norm]
  unfold headRow
  have ho : (fun k => val_main_v36 (F := Ideal) x0 x1 x2 x3 x4 x5 x6 x7 x8 x9 x10 x11 (ix2 p k)) = preNorm (fun k => x0 (ix2 p k)) (fun k => val_main_v15 (F := Ideal) x1 x2 x5 (ix2 p k)) (fun k => val_main_v23 (F := Ideal) x1 x3 x6 x7 (ix2 p k)) (val_main_v0 (F := Ideal) x4) (val_main_v26 (F := Ideal) x8) (val_main_v32 (F := Ideal) x10) (vec x9) (vec x11) := funext fun k => v36_read x0 x1 x2 x3 x4 x5 x6 x7 x8 x9 x10 x11 p k
  rw [ho]

end Stages

/-- The reference's result is every edge's row through `headRow`. -/
theorem result_eq_head (x0 : (⟨S300000x256, .f32⟩ : BufTy).Contents (Elt Ideal)) (x1 : (⟨S100000x256, .f32⟩ : BufTy).Contents (Elt Ideal))
    (x2 x3 : (⟨S300000, .i32⟩ : BufTy).Contents (Elt Ideal)) (x4 x5 x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S256x256, .f32⟩ : BufTy).Contents (Elt Ideal))
    (x11 x12 x13 : (⟨S256, .f32⟩ : BufTy).Contents (Elt Ideal)) :
    val_main_v60 (F := Ideal) x0 x1 x2 x3 x4 x5 x6 x7 x8 x9 x10 x11 x12 x13
      = head (R := 300000) x0 (val_main_v15 (F := Ideal) x1 x2 x5) (val_main_v23 (F := Ideal) x1 x3 x6 x7)
          (val_main_v0 (F := Ideal) x4) (val_main_v26 (F := Ideal) x8) (val_main_v32 (F := Ideal) x10)
          (vec x9) (vec x11) (vec x12) (vec x13) := by
  funext y
  obtain ⟨p, q, rfl⟩ : ∃ (p : Fin 300000) (q : Fin 256), y = ix2 p q := ⟨y 0, y 1, eq_ix2 y⟩
  rw [head_ix2]
  exact v60_read x0 x1 x2 x3 x4 x5 x6 x7 x8 x9 x10 x11 x12 x13 p q

end Cert.ReferenceIdeal.RefValue

end
-- ==== Proof.TakeFill.lean ====
/-
  Taking rows of a table by an index vector, as the kernel's program spells it between its two regions.

  For a table of 100000 rows and 300000 indices: an index below zero counts from the end (idx + 100000), the result is kept
  as a 300000 × 1 column of row numbers w; row e of the output is row w[e] of the table where 0 ≤ w[e] ≤ 99999, and a row
  of one fixed filler word where it is not. The three definitions below are that chain operation by operation, at any float
  family, so that the program's own text can be compared with them.
-/
import proofs.«411138_j16844861735261_3_alg».proof.Proof.Gen.KernelIdeal
import Idealize.ShloMosaic.Lib.ValueIdx

noncomputable section

namespace Cert.KernelIdeal.Take

open Idealize.ShloMosaic Cert.KernelIdeal Cert.KernelIdeal.Gen

variable {F : FTy → Type} [FloatOps F]

/-- The row numbers: idx < 0 ? idx + 100000 : idx, as a 300000 × 1 column. -/
def wrapCol (idx : IVec S300000 32) : IVec S300000x1 32 :=
  broadcastInDim S300000x1 ![0] bcast_S300000_S300000x1_0
    (select (cmpi .slt idx (broadcastInDim S300000 ![] bcast_S_S300000 (constantI S_ 32 0#32)))
      (addi idx (broadcastInDim S300000 ![] bcast_S_S300000 (constantI S_ 32 100000#32))) idx)

/-- Row by row, whether the row number is a row of the table (0 ≤ w ≤ 99999), spread over the 256 columns. -/
def inRange (col : IVec S300000x1 32) : IVec S300000x256 1 :=
  broadcastInDim S300000x256 ![0] bcast_S300000_S300000x256_0
    (Host.reduce IntOp.andi
      (andi (cmpi .sge col (broadcastInDim S300000x1 ![] bcast_S_S300000x1 (constantI S_ 32 0#32)))
        (cmpi .sle col (broadcastInDim S300000x1 ![0, 1] bcast_S1x1_S300000x1_0_1
          (broadcastInDim S1x1 ![1] bcast_S1_S1x1_1 (constantI S1 32 99999#32)))))
      (constantI S_ 1 1#1) reducesTo_S300000x1_S300000_d1 h_S_)

/-- The rows taken, with the filler word's row where the row number is outside the table. -/
def takeFill (tbl : FVec F S100000x256 .f32) (idx : IVec S300000 32) : FVec F S300000x256 .f32 :=
  select (inRange (wrapCol idx))
    (Host.gather gather_S100000x256_S300000x1_S300000x256_1_0_n_n_0_1_1256 tbl (wrapCol idx))
    (broadcastInDim S300000x256 ![] bcast_S_S300000x256 (constant (F := F) S_ .f32 0x7FC00000#32))

end Cert.KernelIdeal.Take

end
-- ==== Proof.Boundary.lean ====
/-
  What each region finds in its arrays when it is entered, as a term of the memory @main is launched from.

  @main is a stretch of host operations, the node-projection region, a second stretch, and the edge-head region. The
  first stretch transposes the five weight matrices, lays the source and destination ones side by side, rounds four of
  the results to the narrow format, and reshapes the five vectors to 1 × 256 rows; it writes none of @main's arguments.
  The region writes its two outputs and nothing else. The second stretch takes rows of the two outputs by the two index
  vectors (`Cert.KernelIdeal.Take.takeFill`) and writes nothing the edge-head region reads besides. So each array the
  edge-head region stages is read back through the boundaries to the launch memory by: "this stretch does not write it",
  "the region does not write it", and the one operation that does write it.
-/
import proofs.«411138_j16844861735261_3_alg».proof.Proof.KernelIdealFrameP
import proofs.«411138_j16844861735261_3_alg».proof.Proof.TakeFill
import Idealize.ShloMosaic.Lib.StableHlo.Run

set_option maxRecDepth 16384

noncomputable section

namespace Cert.KernelIdeal.Boundary

open Idealize.ShloMosaic Idealize.ShloMosaic.TcCoe Idealize.ShloMosaic.Tactic Idealize.SL.Sem Idealize.ShloMosaic.StableHlo
open Cert.KernelIdeal Cert.KernelIdeal.Gen Cert.KernelIdeal.GenP Cert.KernelIdeal.Take

variable {F : FTy → Type} [FloatOps F]

/-! ## The two stretches, from any contents `W` -/

section Stretches

variable (W : Valuation τ sig (Elt F))

theorem s0_keep_main_arg0 : StableHlo.after hostOps0 W (Proc.devRef .tc main_arg0) = W (Proc.devRef .tc main_arg0) := by
  after_results

theorem s0_keep_main_arg1 : StableHlo.after hostOps0 W (Proc.devRef .tc main_arg1) = W (Proc.devRef .tc main_arg1) := by
  after_results

theorem s0_keep_main_arg2 : StableHlo.after hostOps0 W (Proc.devRef .tc main_arg2) = W (Proc.devRef .tc main_arg2) := by
  after_results

theorem s0_keep_main_arg3 : StableHlo.after hostOps0 W (Proc.devRef .tc main_arg3) = W (Proc.devRef .tc main_arg3) := by
  after_results

/-- The two transposed node weight matrices side by side, rounded to the narrow format. -/
theorem s0_mat : (StableHlo.after hostOps0 W (Proc.devRef .tc main_call0_v5) : FVec F S256x512 .bf16)
    = truncf .bf16 (concatenate S256x512 1 [⟨S256x256, transpose S256x256 [1, 0] (W (Proc.devRef .tc main_arg5)) transposes_S256x256_S256x256_1_0⟩, ⟨S256x256, transpose S256x256 [1, 0] (W (Proc.devRef .tc main_arg6)) transposes_S256x256_S256x256_1_0⟩]
        concatenates_S256x256_S256x256_S256x512_d1) bitsLt_bf16_f32 := by
  after_results
  rfl

theorem s0_we : (StableHlo.after hostOps0 W (Proc.devRef .tc main_call0_v1) : FVec F S256x256 .bf16)
    = truncf .bf16 (transpose S256x256 [1, 0] (W (Proc.devRef .tc main_arg4)) transposes_S256x256_S256x256_1_0) bitsLt_bf16_f32 := by
  after_results
  rfl

theorem s0_w1 : (StableHlo.after hostOps0 W (Proc.devRef .tc main_call0_v7) : FVec F S256x256 .bf16)
    = truncf .bf16 (transpose S256x256 [1, 0] (W (Proc.devRef .tc main_arg8)) transposes_S256x256_S256x256_1_0) bitsLt_bf16_f32 := by
  after_results
  rfl

theorem s0_w2 : (StableHlo.after hostOps0 W (Proc.devRef .tc main_call0_v9) : FVec F S256x256 .bf16)
    = truncf .bf16 (transpose S256x256 [1, 0] (W (Proc.devRef .tc main_arg10)) transposes_S256x256_S256x256_1_0) bitsLt_bf16_f32 := by
  after_results
  rfl

theorem s0_bias : (StableHlo.after hostOps0 W (Proc.devRef .tc main_call0_v10) : FVec F S1x256 .f32)
    = shapeCast S1x256 (W (Proc.devRef .tc main_arg7)) shapeCasts_S256_S1x256 := by
  after_results
  rfl

theorem s0_b1 : (StableHlo.after hostOps0 W (Proc.devRef .tc main_call0_v11) : FVec F S1x256 .f32)
    = shapeCast S1x256 (W (Proc.devRef .tc main_arg9)) shapeCasts_S256_S1x256 := by
  after_results
  rfl

theorem s0_b2 : (StableHlo.after hostOps0 W (Proc.devRef .tc main_call0_v12) : FVec F S1x256 .f32)
    = shapeCast S1x256 (W (Proc.devRef .tc main_arg11)) shapeCasts_S256_S1x256 := by
  after_results
  rfl

theorem s0_g : (StableHlo.after hostOps0 W (Proc.devRef .tc main_call0_v13) : FVec F S1x256 .f32)
    = shapeCast S1x256 (W (Proc.devRef .tc main_arg12)) shapeCasts_S256_S1x256 := by
  after_results
  rfl

theorem s0_be : (StableHlo.after hostOps0 W (Proc.devRef .tc main_call0_v14) : FVec F S1x256 .f32)
    = shapeCast S1x256 (W (Proc.devRef .tc main_arg13)) shapeCasts_S256_S1x256 := by
  after_results
  rfl

theorem s1_keep_main_arg0 : StableHlo.after hostOps1 W (Proc.devRef .tc main_arg0) = W (Proc.devRef .tc main_arg0) := by
  after_results

theorem s1_keep_main_call0_v1 : StableHlo.after hostOps1 W (Proc.devRef .tc main_call0_v1) = W (Proc.devRef .tc main_call0_v1) := by
  after_results

theorem s1_keep_main_call0_v7 : StableHlo.after hostOps1 W (Proc.devRef .tc main_call0_v7) = W (Proc.devRef .tc main_call0_v7) := by
  after_results

theorem s1_keep_main_call0_v9 : StableHlo.after hostOps1 W (Proc.devRef .tc main_call0_v9) = W (Proc.devRef .tc main_call0_v9) := by
  after_results

theorem s1_keep_main_call0_v11 : StableHlo.after hostOps1 W (Proc.devRef .tc main_call0_v11) = W (Proc.devRef .tc main_call0_v11) := by
  after_results

theorem s1_keep_main_call0_v12 : StableHlo.after hostOps1 W (Proc.devRef .tc main_call0_v12) = W (Proc.devRef .tc main_call0_v12) := by
  after_results

theorem s1_keep_main_call0_v13 : StableHlo.after hostOps1 W (Proc.devRef .tc main_call0_v13) = W (Proc.devRef .tc main_call0_v13) := by
  after_results

theorem s1_keep_main_call0_v14 : StableHlo.after hostOps1 W (Proc.devRef .tc main_call0_v14) = W (Proc.devRef .tc main_call0_v14) := by
  after_results

set_option maxHeartbeats 4000000 in
set_option maxRecDepth 1000000 in
/-- The rows of the first table taken by the source indices. -/
theorem s1_gs : (StableHlo.after hostOps1 W (Proc.devRef .tc main_call0_v16) : FVec F S300000x256 .f32)
    = takeFill (W (Proc.devRef .tc main_call0_v15_0)) (W (Proc.devRef .tc main_arg2)) := by
  after_results_simp
  rfl

set_option maxHeartbeats 4000000 in
set_option maxRecDepth 1000000 in
/-- The rows of the second table taken by the destination indices. -/
theorem s1_gd : (StableHlo.after hostOps1 W (Proc.devRef .tc main_call0_v17) : FVec F S300000x256 .f32)
    = takeFill (W (Proc.devRef .tc main_call0_v15_1)) (W (Proc.devRef .tc main_arg3)) := by
  after_results_simp
  rfl

end Stretches

/-! ## The regions' entry contents, from the launch memory -/

variable (m : (ℓ : Loc nD τ sig) → Buf (Elt F) ℓ) (ρ : Dev nD → PrngReg)

/-- An argument the first stretch and the first region leave alone, at the first region's exit. -/
theorem W2_arg2 (c : Dev nD) : W2 m ρ c (Proc.devRef .tc main_arg2) = (m ((c : Thread nD τ).loc main_arg2)) :=
  (W2_of_ne m ρ c main_arg2 (by decide)).trans (s0_keep_main_arg2 (W0 m ρ c))

theorem W2_arg3 (c : Dev nD) : W2 m ρ c (Proc.devRef .tc main_arg3) = (m ((c : Thread nD τ).loc main_arg3)) :=
  (W2_of_ne m ρ c main_arg3 (by decide)).trans (s0_keep_main_arg3 (W0 m ρ c))

/-! ### The node-projection region's three inputs -/

theorem V1_node (c : Dev nD) : V1 m ρ c main_arg1 = (m ((c : Thread nD τ).loc main_arg1)) :=
  s0_keep_main_arg1 (W0 m ρ c)

theorem V1_mat (c : Dev nD) : (V1 m ρ c main_call0_v5 : FVec F S256x512 .bf16)
    = truncf .bf16 (concatenate S256x512 1 [⟨S256x256, transpose S256x256 [1, 0] (m ((c : Thread nD τ).loc main_arg5)) transposes_S256x256_S256x256_1_0⟩, ⟨S256x256, transpose S256x256 [1, 0] (m ((c : Thread nD τ).loc main_arg6)) transposes_S256x256_S256x256_1_0⟩]
        concatenates_S256x256_S256x256_S256x512_d1) bitsLt_bf16_f32 :=
  s0_mat (W0 m ρ c)

theorem V1_bias (c : Dev nD) : (V1 m ρ c main_call0_v10 : FVec F S1x256 .f32)
    = shapeCast S1x256 (m ((c : Thread nD τ).loc main_arg7)) shapeCasts_S256_S1x256 :=
  s0_bias (W0 m ρ c)

/-! ### The edge-head region's ten inputs -/

theorem V3_edge (c : Dev nD) : V3 m ρ c main_arg0 = (m ((c : Thread nD τ).loc main_arg0)) :=
  ((s1_keep_main_arg0 (W2 m ρ c)).trans (W2_of_ne m ρ c main_arg0 (by decide))).trans (s0_keep_main_arg0 (W0 m ρ c))

/-- The rows of the node-projection region's first output taken by the source indices. -/
theorem V3_gs (c : Dev nD) : (V3 m ρ c main_call0_v16 : FVec F S300000x256 .f32)
    = takeFill ((dat0 (V1 m ρ) c).arrAt 3 cfg0.N) (m ((c : Thread nD τ).loc main_arg2)) := by
  refine (s1_gs (W2 m ρ c)).trans ?_
  rw [W2_arg2 m ρ c]
  exact congrArg (fun tbl => takeFill tbl (m ((c : Thread nD τ).loc main_arg2))) (W2_arr m ρ c 3)

/-- The rows of its second output taken by the destination indices. -/
theorem V3_gd (c : Dev nD) : (V3 m ρ c main_call0_v17 : FVec F S300000x256 .f32)
    = takeFill ((dat0 (V1 m ρ) c).arrAt 4 cfg0.N) (m ((c : Thread nD τ).loc main_arg3)) := by
  refine (s1_gd (W2 m ρ c)).trans ?_
  rw [W2_arg3 m ρ c]
  exact congrArg (fun tbl => takeFill tbl (m ((c : Thread nD τ).loc main_arg3))) (W2_arr m ρ c 4)

theorem V3_we (c : Dev nD) : (V3 m ρ c main_call0_v1 : FVec F S256x256 .bf16)
    = truncf .bf16 (transpose S256x256 [1, 0] (m ((c : Thread nD τ).loc main_arg4)) transposes_S256x256_S256x256_1_0) bitsLt_bf16_f32 :=
  ((s1_keep_main_call0_v1 (W2 m ρ c)).trans (W2_of_ne m ρ c main_call0_v1 (by decide))).trans (s0_we (W0 m ρ c))

theorem V3_w1 (c : Dev nD) : (V3 m ρ c main_call0_v7 : FVec F S256x256 .bf16)
    = truncf .bf16 (transpose S256x256 [1, 0] (m ((c : Thread nD τ).loc main_arg8)) transposes_S256x256_S256x256_1_0) bitsLt_bf16_f32 :=
  ((s1_keep_main_call0_v7 (W2 m ρ c)).trans (W2_of_ne m ρ c main_call0_v7 (by decide))).trans (s0_w1 (W0 m ρ c))

theorem V3_w2 (c : Dev nD) : (V3 m ρ c main_call0_v9 : FVec F S256x256 .bf16)
    = truncf .bf16 (transpose S256x256 [1, 0] (m ((c : Thread nD τ).loc main_arg10)) transposes_S256x256_S256x256_1_0) bitsLt_bf16_f32 :=
  ((s1_keep_main_call0_v9 (W2 m ρ c)).trans (W2_of_ne m ρ c main_call0_v9 (by decide))).trans (s0_w2 (W0 m ρ c))

theorem V3_b1 (c : Dev nD) : (V3 m ρ c main_call0_v11 : FVec F S1x256 .f32)
    = shapeCast S1x256 (m ((c : Thread nD τ).loc main_arg9)) shapeCasts_S256_S1x256 :=
  ((s1_keep_main_call0_v11 (W2 m ρ c)).trans (W2_of_ne m ρ c main_call0_v11 (by decide))).trans (s0_b1 (W0 m ρ c))

theorem V3_b2 (c : Dev nD) : (V3 m ρ c main_call0_v12 : FVec F S1x256 .f32)
    = shapeCast S1x256 (m ((c : Thread nD τ).loc main_arg11)) shapeCasts_S256_S1x256 :=
  ((s1_keep_main_call0_v12 (W2 m ρ c)).trans (W2_of_ne m ρ c main_call0_v12 (by decide))).trans (s0_b2 (W0 m ρ c))

theorem V3_g (c : Dev nD) : (V3 m ρ c main_call0_v13 : FVec F S1x256 .f32)
    = shapeCast S1x256 (m ((c : Thread nD τ).loc main_arg12)) shapeCasts_S256_S1x256 :=
  ((s1_keep_main_call0_v13 (W2 m ρ c)).trans (W2_of_ne m ρ c main_call0_v13 (by decide))).trans (s0_g (W0 m ρ c))

theorem V3_be (c : Dev nD) : (V3 m ρ c main_call0_v14 : FVec F S1x256 .f32)
    = shapeCast S1x256 (m ((c : Thread nD τ).loc main_arg13)) shapeCasts_S256_S1x256 :=
  ((s1_keep_main_call0_v14 (W2 m ρ c)).trans (W2_of_ne m ρ c main_call0_v14 (by decide))).trans (s0_be (W0 m ρ c))

end Cert.KernelIdeal.Boundary

end
-- ==== Proof.Pay0.lean ====
/-
  The node-projection body, index by index, on the extended reals. The body multiplies its 4000 × 256 block of node features
  (rounded to the narrow format, which changes nothing here) by the 256 × 512 matrix holding the two transposed weight
  matrices side by side, and stores the left 256 columns of the product as they are and the right 256 columns plus the bias
  row. So the first stored block is `projL` and the second `projR` of the block and the matrix.
-/
import proofs.«411138_j16844861735261_3_alg».proof.Proof.Gen.KernelIdeal.Skeleton
import proofs.«411138_j16844861735261_3_alg».proof.Proof.EdgeSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay0

open Idealize.ShloMosaic Idealize.ShloMosaic.ValueIdx Cert.KernelIdeal Cert.KernelIdeal.Gen Cert.EdgeSpec

/-- The product of the block and the side-by-side matrix, before it is cut in two: entry (p, c) is ∑_k x0[p, k] · x1[k, c].
    Rounding the block to the narrow format and recasting the matrix to its own shape change nothing. -/
theorem pay1_eq (x0 : Vec Ideal S4000x256 .f32) (x1 : Vec Ideal S256x512 .bf16) :
    k0_pay1 (F := Ideal) x0 x1 = Cert.LibPlainDot.matProd (M := 4000) (K := 256) (N := 512) x0 x1 := by
  unfold k0_pay1
  rw [shapeCast_self]
  exact Cert.LibPlainDot.matmul_zero_eq_matProd dot_S4000x256_S256x512_S4000x512_1_0_0_1_n_n rfl rfl rfl rfl rfl rfl none
    (truncf .bf16 x0 bitsLt_bf16_f32) x1

/-- The left half of the product, as stored to the first output block. -/
theorem left_eq (x0 : Vec Ideal S4000x256 .f32) (x1 : Vec Ideal S256x512 .bf16) :
    k0_pay2 (F := Ideal) x0 x1 = projL (R := 4000) x0 x1 := by
  funext y
  obtain ⟨p, q, rfl⟩ : ∃ (p : Fin 4000) (q : Fin 256), y = ix2 p q := ⟨y 0, y 1, eq_ix2 y⟩
  unfold k0_pay2
  rw [slice2_axis1_apply 0 (k0_pay1 (F := Ideal) x0 x1) slices_S4000x512_o0_0_S4000x256 p q (colL q) (by simp [colL]),
    pay1_eq, Cert.LibPlainDot.matProd_ix2, projL_ix2]

/-- The right half of the product plus the bias row, as stored to the second output block. -/
theorem right_eq (x0 : Vec Ideal S4000x256 .f32) (x1 : Vec Ideal S256x512 .bf16) (x2 : Vec Ideal S1x256 .f32) :
    k0_pay3 (F := Ideal) x0 x1 x2 = projR (R := 4000) x0 x1 (row x2) := by
  funext y
  obtain ⟨p, q, rfl⟩ : ∃ (p : Fin 4000) (q : Fin 256), y = ix2 p q := ⟨y 0, y 1, eq_ix2 y⟩
  unfold k0_pay3
  rw [addf_apply, shapeCast_self, broadcastTo_1b_ab_apply,
    slice2_axis1_apply 256 (k0_pay1 (F := Ideal) x0 x1) slices_S4000x512_o0_256_S4000x256 p q (colR q) (by simp [colR]),
    pay1_eq, Cert.LibPlainDot.matProd_ix2, projR_ix2]
  rfl

/-- Against two 256 × 256 matrices laid side by side (rounded to the narrow format, which changes nothing here), the left
    half of the product is the plain product with the first. -/
theorem projL_sideBySide {R : Nat} (X : Mat R 256) (A B : FVec Ideal S256x256 .f32) :
    projL X (truncf .bf16 (concatenate S256x512 1 [⟨S256x256, A⟩, ⟨S256x256, B⟩] concatenates_S256x256_S256x256_S256x512_d1)
        bitsLt_bf16_f32)
      = Cert.LibPlainDot.matProd (M := R) (K := 256) (N := 256) X A := by
  funext y
  obtain ⟨p, q, rfl⟩ : ∃ (p : Fin R) (q : Fin 256), y = ix2 p q := ⟨y 0, y 1, eq_ix2 y⟩
  rw [projL_ix2, Cert.LibPlainDot.matProd_ix2]
  refine Finset.sum_congr rfl fun k _ => ?_
  rw [truncf_apply]
  congr 1
  refine concatenate_pair_apply_left (t := S256x512) (s₁ := S256x256) (s₂ := S256x256) 1 A B
    concatenates_S256x256_S256x256_S256x512_d1 (ix2 k (colL q)) rfl (ix2 k q) fun b => ?_
  match b with
  | ⟨0, _⟩ => rfl
  | ⟨1, _⟩ => rfl

/-- … and the right half plus a bias row is the plain product with the second, plus the bias along each row. -/
theorem projR_sideBySide {R : Nat} (X : Mat R 256) (A B : FVec Ideal S256x256 .f32) (b : Fin 256 → EReal) :
    projR X (truncf .bf16 (concatenate S256x512 1 [⟨S256x256, A⟩, ⟨S256x256, B⟩] concatenates_S256x256_S256x256_S256x512_d1)
        bitsLt_bf16_f32) b
      = fun y => Cert.LibPlainDot.matProd (M := R) (K := 256) (N := 256) X B y + b (y 1) := by
  funext y
  obtain ⟨p, q, rfl⟩ : ∃ (p : Fin R) (q : Fin 256), y = ix2 p q := ⟨y 0, y 1, eq_ix2 y⟩
  rw [projR_ix2]
  show _ = Cert.LibPlainDot.matProd (M := R) (K := 256) (N := 256) X B (ix2 p q) + b q
  rw [Cert.LibPlainDot.matProd_ix2]
  congr 1
  refine Finset.sum_congr rfl fun k _ => ?_
  rw [truncf_apply]
  congr 1
  refine concatenate_pair_apply_right (t := S256x512) (s₁ := S256x256) (s₂ := S256x256) 1 A B
    concatenates_S256x256_S256x256_S256x512_d1 (ix2 k (colR q)) rfl rfl (ix2 k q) (fun c hc => ?_) ?_
  · match c with
    | ⟨0, _⟩ => rfl
    | ⟨1, _⟩ => exact absurd rfl hc
  · show q.val + 256 = 256 + q.val
    omega

end Cert.KernelIdeal.Pay0

end
-- ==== Proof.Region0.lean ====
/-
  The node-projection region's two output arrays after all 25 grid points. Point t stages rows 4000 t … 4000 t + 3999 of the
  node features with the whole 256 × 512 matrix and the whole bias row, and writes back the two 4000 × 256 blocks the body
  stores. The stored blocks are `projL` and `projR` of the staged blocks, both are row by row, so the block written at
  point t is rows 4000 t … of `projL` (`projR`) of the whole arrays; the 25 blocks tile the 100000 rows, so each output
  array ends as that function of the arrays the region finds at entry.
-/
import proofs.«411138_j16844861735261_3_alg».proof.Proof.KernelIdealFrameP
import proofs.«411138_j16844861735261_3_alg».proof.Proof.Pay0
import proofs.«411138_j16844861735261_3_alg».proof.Proof.EdgeSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem Cert.KernelIdeal Cert.KernelIdeal.Gen Cert.KernelIdeal.GenP Cert.EdgeSpec

variable (V : (c : Dev nD) → (b : Ref sig .tc) → Buf (Elt Ideal) ((c : Thread nD τ).loc b))

theorem hz : (![0, 0] : Fin 2 → Nat) = fun _ => 0 := funext fun a => by fin_cases a <;> rfl

/-- The two projections over a set of rows are the projections over all rows, read at those rows. -/
theorem projL_rows {R R' : Nat} (r : Fin R → Fin R') (X : Mat R' 256) (X' : Mat R 256) (T T' : Mat 256 512)
    (hX : ∀ p k, X' (ix2 p k) = X (ix2 (r p) k)) (hT : T' = T) (p : Fin R) (q : Fin 256) :
    projL X' T' (ix2 p q) = projL X T (ix2 (r p) q) := by
  subst hT
  rw [projL_ix2, projL_ix2]
  exact Finset.sum_congr rfl fun k _ => by rw [hX p k]

theorem projR_rows {R R' : Nat} (r : Fin R → Fin R') (X : Mat R' 256) (X' : Mat R 256) (T T' : Mat 256 512)
    (b b' : Fin 256 → EReal) (hX : ∀ p k, X' (ix2 p k) = X (ix2 (r p) k)) (hT : T' = T) (hb : b' = b) (p : Fin R) (q : Fin 256) :
    projR X' T' b' (ix2 p q) = projR X T b (ix2 (r p) q) := by
  subst hT hb
  rw [projR_ix2, projR_ix2]
  exact congrArg (· + b' q) (Finset.sum_congr rfl fun k _ => by rw [hX p k])

/-- The printed index maps, decided over the grid: the node features and both outputs are at block (t, 0); the matrix
    and the bias row are at block (0, 0). -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem N_eq : cfg0.N = 25 := N_0

/-- Row p of the block at point t is row 4000 t + p of the array. -/
def rowAt (t : Fin cfg0.N) (p : Fin 4000) : Fin 100000 :=
  ⟨t.val * 4000 + p.val, by have := t.isLt; have := p.isLt; have := N_eq; omega⟩

theorem emb_src (t : Fin cfg0.N) (j : S4000x256.Idx) :
    ((cfg0.win 3).blk t).view.emb j = ix2 (rowAt t (j 0)) (j 1) := by
  obtain ⟨e00, e01, e10, e11, e20, e21, e30, e31, e40, e41⟩ := idx_facts t
  funext a; apply Fin.ext
  match a with
  | ⟨0, _⟩ => show win0_3.index t (0 : Fin 2) * 4000 + 1 * (j 0).val = t.val * 4000 + (j 0).val; omega
  | ⟨1, _⟩ => show win0_3.index t (1 : Fin 2) * 256 + 1 * (j 1).val = (j 1).val; omega

theorem emb_dst (t : Fin cfg0.N) (j : S4000x256.Idx) :
    ((cfg0.win 4).blk t).view.emb j = ix2 (rowAt t (j 0)) (j 1) := by
  obtain ⟨e00, e01, e10, e11, e20, e21, e30, e31, e40, e41⟩ := idx_facts t
  funext a; apply Fin.ext
  match a with
  | ⟨0, _⟩ => show win0_4.index t (0 : Fin 2) * 4000 + 1 * (j 0).val = t.val * 4000 + (j 0).val; omega
  | ⟨1, _⟩ => show win0_4.index t (1 : Fin 2) * 256 + 1 * (j 1).val = (j 1).val; omega

/-- The node features' block is the array's rows 4000 t …. -/
theorem blk_node (c : Dev nD) (t : Fin cfg0.N) (p : Fin 4000) (k : Fin 256) :
    iblk0 V c 0 t (ix2 p k) = V c main_arg1 (ix2 (rowAt t p) k) := by
  obtain ⟨e00, e01, e10, e11, e20, e21, e30, e31, e40, e41⟩ := idx_facts t
  show V c main_arg1 (((cfg0.win 0).blk t).view.emb (ix2 p k)) = V c main_arg1 (ix2 (rowAt t p) k)
  refine congrArg (V c main_arg1) ?_
  funext a; apply Fin.ext
  match a with
  | ⟨0, _⟩ => show win0_0.index t (0 : Fin 2) * 4000 + 1 * p.val = t.val * 4000 + p.val; omega
  | ⟨1, _⟩ => show win0_0.index t (1 : Fin 2) * 256 + 1 * k.val = k.val; omega

/-- The matrix and the bias row are staged whole. -/
theorem blk_mat (c : Dev nD) (t : Fin cfg0.N) : (iblk0 V c 1 t : Mat 256 512) = V c main_call0_v5 := by
  obtain ⟨e00, e01, e10, e11, e20, e21, e30, e31, e40, e41⟩ := idx_facts t
  funext y
  show V c main_call0_v5 (((cfg0.win 1).blk t).view.emb y) = V c main_call0_v5 y
  refine congrArg (V c main_call0_v5) ?_
  funext a; apply Fin.ext
  match a with
  | ⟨0, _⟩ => show win0_1.index t (0 : Fin 2) * 256 + 1 * (y 0).val = (y 0).val; omega
  | ⟨1, _⟩ => show win0_1.index t (1 : Fin 2) * 512 + 1 * (y 1).val = (y 1).val; omega

theorem blk_bias (c : Dev nD) (t : Fin cfg0.N) : (iblk0 V c 2 t : Mat 1 256) = V c main_call0_v10 := by
  obtain ⟨e00, e01, e10, e11, e20, e21, e30, e31, e40, e41⟩ := idx_facts t
  funext y
  show V c main_call0_v10 (((cfg0.win 2).blk t).view.emb y) = V c main_call0_v10 y
  refine congrArg (V c main_call0_v10) ?_
  funext a; apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The whole-array functions the two outputs end at. -/
abbrev Gs (c : Dev nD) : Mat 100000 256 := projL (R := 100000) (V c main_arg1) (V c main_call0_v5)
abbrev Gd (c : Dev nD) : Mat 100000 256 :=
  projR (R := 100000) (V c main_arg1) (V c main_call0_v5) (row (V c main_call0_v10))

/-- What point t writes back to the first output is rows 4000 t … of `Gs`. -/
theorem flushed_src (c : Dev nD) (t : Fin cfg0.N) :
    (dat0 V c).flushed 3 t = ((cfg0.win 3).blk t).view.read (Elt Ideal) (Gs V c) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x512) hz]
  rw [Pay0.left_eq]
  funext j
  show projL (R := 4000) (iblk0 V c 0 t) (iblk0 V c 1 t) j = Gs V c (((cfg0.win 3).blk t).view.emb j)
  rw [emb_src t j, eq_ix2 j]
  exact projL_rows (rowAt t) _ _ _ _ (blk_node V c t) (blk_mat V c t) (j 0) (j 1)

/-- … and to the second output, rows 4000 t … of `Gd`. -/
theorem flushed_dst (c : Dev nD) (t : Fin cfg0.N) :
    (dat0 V c).flushed 4 t = ((cfg0.win 4).blk t).view.read (Elt Ideal) (Gd V c) := by
  show (cfg0.win 4).cut (grid0.coords t) ((dat0 V c).after 4 t) = _
  rw [after0_4]
  unfold out0_4
  rw [View.canon_unit_zero hz]
  simp only [View.ld_unit_zero (S := S4000x256) hz, View.ld_unit_zero (S := S256x512) hz, View.ld_unit_zero (S := S1x256) hz]
  rw [Pay0.right_eq]
  funext j
  show projR (R := 4000) (iblk0 V c 0 t) (iblk0 V c 1 t) (row (iblk0 V c 2 t)) j = Gd V c (((cfg0.win 4).blk t).view.emb j)
  rw [emb_dst t j, eq_ix2 j]
  exact projR_rows (rowAt t) _ _ _ _ _ _ (blk_node V c t) (blk_mat V c t) (congrArg row (blk_bias V c t)) (j 0) (j 1)

theorem mem_blk_src (t : Fin cfg0.N) (i : S100000x256.Idx) :
    i ∈ ((cfg0.win 3).blk t).view.set ↔ ∀ a : Fin 2, win0_3.index t a * S4000x256.size a ≤ (i a).val
      ∧ (i a).val < win0_3.index t a * S4000x256.size a + S4000x256.size a := by
  show i ∈ ((View.whole main_call0_v15_0).slice (win0_3.rect t)).set ↔ _
  rw [View.set_slice_whole, Rect.mem_set_unit]
  exact Iff.rfl

theorem mem_blk_dst (t : Fin cfg0.N) (i : S100000x256.Idx) :
    i ∈ ((cfg0.win 4).blk t).view.set ↔ ∀ a : Fin 2, win0_4.index t a * S4000x256.size a ≤ (i a).val
      ∧ (i a).val < win0_4.index t a * S4000x256.size a + S4000x256.size a := by
  show i ∈ ((View.whole main_call0_v15_1).slice (win0_4.rect t)).set ↔ _
  rw [View.set_slice_whole, Rect.mem_set_unit]
  exact Iff.rfl

/-- Every index of either output is in some point's block: row r is in the block of point r / 4000. -/
theorem cover_src (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN := N_eq
  let t : Fin cfg0.N := ⟨(i 0).val / 4000, by omega⟩
  obtain ⟨e00, e01, e10, e11, e20, e21, e30, e31, e40, e41⟩ := idx_facts t
  refine ⟨t, flush0_3 t, ?_⟩
  rw [mem_blk_src]
  have ht : t.val = (i 0).val / 4000 := rfl
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 256 ≤ (i 1).val ∧ (i 1).val < win0_3.index t (1 : Fin 2) * 256 + 256; omega

theorem cover_dst (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have hN := N_eq
  let t : Fin cfg0.N := ⟨(i 0).val / 4000, by omega⟩
  obtain ⟨e00, e01, e10, e11, e20, e21, e30, e31, e40, e41⟩ := idx_facts t
  refine ⟨t, flush0_4 t, ?_⟩
  rw [mem_blk_dst]
  have ht : t.val = (i 0).val / 4000 := rfl
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 256 ≤ (i 1).val ∧ (i 1).val < win0_4.index t (1 : Fin 2) * 256 + 256; omega

/-- The first output array: the left half of node features times the side-by-side matrix. -/
theorem final_src (c : Dev nD) :
    (dat0 V c).arrAt 3 cfg0.N = projL (R := 100000) (V c main_arg1) (V c main_call0_v5) :=
  (dat0 V c).arrAt_eq_of_cover 3 (Gs V c) (fun t _ => flushed_src V c t) cover_src

/-- The second output array: the right half plus the bias row. -/
theorem final_dst (c : Dev nD) :
    (dat0 V c).arrAt 4 cfg0.N = projR (R := 100000) (V c main_arg1) (V c main_call0_v5) (row (V c main_call0_v10)) :=
  (dat0 V c).arrAt_eq_of_cover 4 (Gd V c) (fun t _ => flushed_dst V c t) cover_dst

end Cert.KernelIdeal.Region0

end
-- ==== Proof.Pay1.lean ====
/-
  The edge-head body, index by index, on the extended reals: entry (p, q) of the stored 3000 × 256 block is row p of the
  edge block and of the two gathered blocks through `Cert.EdgeSpec.headRow`, at q. The three matrix-unit products into a
  zero accumulator are plain sums over the contracted coordinate, the roundings to the narrow format change nothing, the
  logistic is 1 / (1 + e^(−t)), the two lane reductions are the row's sum, and the scale, shift and bias rows are read at
  their column.
-/
import proofs.«411138_j16844861735261_3_alg».proof.Proof.Gen.KernelIdeal.Skeleton
import proofs.«411138_j16844861735261_3_alg».proof.Proof.EdgeSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Pay1

open Idealize.ShloMosaic Idealize.ShloMosaic.ValueIdx Cert.KernelIdeal Cert.KernelIdeal.Gen Cert.EdgeSpec Cert.LibLayerNorm
open Cert.LibRowOps Cert.LibPlainDot

/-- The first product plus the two gathered blocks, entry by entry. -/
theorem hidden_block (x0 x1 x2 : FVec Ideal S3000x256 .f32) (T : FVec Ideal S256x256 .bf16) :
    addf (addf (matmul dot_S3000x256_S256x256_S3000x256_1_0_0_1_n_n none (truncf .bf16 x0 bitsLt_bf16_f32) T
        (constant S3000x256 .f32 0x00000000#32)) x1) x2
      = fun y => hidden (fun k => x0 (ix2 (y 0) k)) (fun k => x1 (ix2 (y 0) k)) (fun k => x2 (ix2 (y 0) k)) T (y 1) := by
  simp only [matmul]
  rw [matmul_zero_eq_matProd dot_S3000x256_S256x256_S3000x256_1_0_0_1_n_n rfl rfl rfl rfl rfl rfl]
  funext y
  obtain ⟨p, q, rfl⟩ : ∃ (p : Fin 3000) (q : Fin 256), y = ix2 p q := ⟨y 0, y 1, eq_ix2 y⟩
  rfl

/-- t · sigmoid t at every entry. -/
theorem silu_block (v : FVec Ideal S3000x256 .f32) : mulf v (logistic v) = fun y => silu (v y) := rfl

/-- A product plus a bias row spread over the rows, entry by entry. -/
theorem layer_block (a : FVec Ideal S3000x256 .f32) (T : FVec Ideal S256x256 .bf16) (b : FVec Ideal S1x256 .f32) :
    addf (matmul dot_S3000x256_S256x256_S3000x256_1_0_0_1_n_n none (truncf .bf16 a bitsLt_bf16_f32) T
        (constant S3000x256 .f32 0x00000000#32)) (broadcastTo S3000x256 b broadcasts_S1x256_S3000x256)
      = fun y => layer (fun k => a (ix2 (y 0) k)) T (row b) (y 1) := by
  simp only [matmul]
  rw [matmul_zero_eq_matProd dot_S3000x256_S256x256_S3000x256_1_0_0_1_n_n rfl rfl rfl rfl rfl rfl]
  funext y
  obtain ⟨p, q, rfl⟩ : ∃ (p : Fin 3000) (q : Fin 256), y = ix2 p q := ⟨y 0, y 1, eq_ix2 y⟩
  rw [addf_apply, broadcastTo_1b_ab_apply]
  rfl

/-- The block before normalisation: row (y 0) of the three loaded blocks through `preNorm`, at (y 1). -/
theorem pay2_eq (x0 x1 x2 : Vec Ideal S3000x256 .f32) (x3 x4 : Vec Ideal S256x256 .bf16) (x5 : Vec Ideal S1x256 .f32)
    (x6 : Vec Ideal S256x256 .bf16) (x7 : Vec Ideal S1x256 .f32) :
    k1_pay2 (F := Ideal) x0 x3 x1 x2 x4 x5 x6 x7
      = fun y => preNorm (fun k => x0 (ix2 (y 0) k)) (fun k => x1 (ix2 (y 0) k)) (fun k => x2 (ix2 (y 0) k)) x3 x4 x6
          (row x5) (row x7) (y 1) := by
  unfold k1_pay2
  simp only [shapeCast_self]
  rw [hidden_block, silu_block, layer_block, silu_block, layer_block]
  rfl

/-- The mean column: entry (p, z) is the mean of row p of the block. -/
theorem pay3_apply (x0 x1 x2 : Vec Ideal S3000x256 .f32) (x3 x4 : Vec Ideal S256x256 .bf16) (x5 : Vec Ideal S1x256 .f32)
    (x6 : Vec Ideal S256x256 .bf16) (x7 : Vec Ideal S1x256 .f32) (p : Fin 3000) (z : Fin 1) :
    k1_pay3 (F := Ideal) x0 x3 x1 x2 x4 x5 x6 x7 (ix2 p z)
      = rowMean (Ideal.ofBits .f32 nWord) fun k => k1_pay2 (F := Ideal) x0 x3 x1 x2 x4 x5 x6 x7 (ix2 p k) :=
  kMean_apply reduces_S3000x256_S3000 (.inl rfl) rfl shapeCasts_S3000_S3000x1 nWord
    (k1_pay2 (F := Ideal) x0 x3 x1 x2 x4 x5 x6 x7) p z

/-- The squared deviations: entry (p, k) is (o[k] − μ)², o row p of the block and μ its mean. -/
theorem pay4_apply (x0 x1 x2 : Vec Ideal S3000x256 .f32) (x3 x4 : Vec Ideal S256x256 .bf16) (x5 : Vec Ideal S1x256 .f32)
    (x6 : Vec Ideal S256x256 .bf16) (x7 : Vec Ideal S1x256 .f32) (p : Fin 3000) (k : Fin 256) :
    k1_pay4 (F := Ideal) x0 x3 x1 x2 x4 x5 x6 x7 (ix2 p k)
      = (k1_pay2 (F := Ideal) x0 x3 x1 x2 x4 x5 x6 x7 (ix2 p k)
            - rowMean (Ideal.ofBits .f32 nWord) fun k => k1_pay2 (F := Ideal) x0 x3 x1 x2 x4 x5 x6 x7 (ix2 p k))
        * (k1_pay2 (F := Ideal) x0 x3 x1 x2 x4 x5 x6 x7 (ix2 p k)
            - rowMean (Ideal.ofBits .f32 nWord) fun k => k1_pay2 (F := Ideal) x0 x3 x1 x2 x4 x5 x6 x7 (ix2 p k)) := by
  unfold k1_pay4
  rw [mulf_apply, subf_apply, broadcastTo_col, pay3_apply]

/-- The last stage at (p, q), from what the mean column and the squared deviations are on row p. -/
theorem pay1_apply (v30 : FVec Ideal S3000x256 .f32) (v34 : FVec Ideal S3000x1 .f32) (v37 : FVec Ideal S3000x256 .f32)
    (g b : Vec Ideal S1x256 .f32) (p : Fin 3000) (q : Fin 256)
    (h34 : v34 (ix2 p (0 : Fin 1)) = rowMean (Ideal.ofBits .f32 nWord) fun k => v30 (ix2 p k))
    (h37 : ∀ k : Fin 256, v37 (ix2 p k)
      = (v30 (ix2 p k) - rowMean (Ideal.ofBits .f32 nWord) fun k => v30 (ix2 p k))
        * (v30 (ix2 p k) - rowMean (Ideal.ofBits .f32 nWord) fun k => v30 (ix2 p k))) :
    k1_pay1 (F := Ideal) v30 v34 v37 g b (ix2 p q)
      = normRow (Ideal.ofBits .f32 nWord) (Ideal.ofBits .f32 epsWord) (fun k => v30 (ix2 p k)) (row g) (row b) q := by
  have hvar : kMean reduces_S3000x256_S3000 (.inl rfl) rfl shapeCasts_S3000_S3000x1 nWord v37 (ix2 p (0 : Fin 1))
      = rowVar (Ideal.ofBits .f32 nWord) fun k => v30 (ix2 p k) := by
    refine (kMean_apply reduces_S3000x256_S3000 (.inl rfl) rfl shapeCasts_S3000_S3000x1 nWord v37 p 0).trans ?_
    exact congrArg (Ideal.div · _) (Finset.sum_congr rfl fun k _ => h37 k)
  unfold k1_pay1 normRow
  simp only [shapeCast_self]
  rw [addf_apply, mulf_apply, mulf_apply, subf_apply, broadcastTo_col, broadcastTo_col, broadcastTo_1b_ab_apply,
    broadcastTo_1b_ab_apply, rsqrt_apply, addf_apply, h34]
  rw [show divf (shapeCast S3000x1 (multiReduction .add [1] S3000 v37 0x00000000#32 reduces_S3000x256_S3000 (.inl rfl) rfl)
        shapeCasts_S3000_S3000x1) (broadcast S3000x1 (Scalar.ofBits .f32 0x43800000#32)) (ix2 p (0 : Fin 1))
      = rowVar (Ideal.ofBits .f32 nWord) fun k => v30 (ix2 p k) from hvar]
  rfl

/-- What the body stores, as one function of the blocks it loads. -/
theorem body_eq_head (x0 x1 x2 : Vec Ideal S3000x256 .f32) (x3 x4 : Vec Ideal S256x256 .bf16) (x5 : Vec Ideal S1x256 .f32)
    (x6 : Vec Ideal S256x256 .bf16) (x7 x8 x9 : Vec Ideal S1x256 .f32) :
    k1_pay1 (F := Ideal) (k1_pay2 x0 x3 x1 x2 x4 x5 x6 x7) (k1_pay3 x0 x3 x1 x2 x4 x5 x6 x7)
        (k1_pay4 x0 x3 x1 x2 x4 x5 x6 x7) x8 x9
      = head (R := 3000) x0 x1 x2 x3 x4 x6 (row x5) (row x7) (row x8) (row x9) := by
  funext y
  obtain ⟨p, q, rfl⟩ : ∃ (p : Fin 3000) (q : Fin 256), y = ix2 p q := ⟨y 0, y 1, eq_ix2 y⟩
  rw [pay1_apply _ _ _ x8 x9 p q (pay3_apply x0 x1 x2 x3 x4 x5 x6 x7 p 0) (pay4_apply x0 x1 x2 x3 x4 x5 x6 x7 p),
    head_ix2, pay2_eq]
  rfl

end Cert.KernelIdeal.Pay1

end
-- ==== Proof.Region1.lean ====
/-
  The edge-head region's output array after all 100 grid points. Point t stages rows 3000 t … 3000 t + 2999 of the edge
  features and of the two gathered arrays, with the three weight matrices and the four rows whole, and writes back the
  3000 × 256 block the body stores. That block is `head` of the staged blocks, `head` is row by row, so the block written at
  point t is rows 3000 t … of `head` of the whole arrays; the 100 blocks tile the 300000 rows.
-/
import proofs.«411138_j16844861735261_3_alg».proof.Proof.KernelIdealFrameP
import proofs.«411138_j16844861735261_3_alg».proof.Proof.Pay1
import proofs.«411138_j16844861735261_3_alg».proof.Proof.EdgeSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem Cert.KernelIdeal Cert.KernelIdeal.Gen Cert.KernelIdeal.GenP Cert.EdgeSpec

variable (V : (c : Dev nD) → (b : Ref sig .tc) → Buf (Elt Ideal) ((c : Thread nD τ).loc b))

theorem hz : (![0, 0] : Fin 2 → Nat) = fun _ => 0 := funext fun a => by fin_cases a <;> rfl

/-- The result over a set of rows is the result over all rows, read at those rows: `head` uses of its three row-indexed
    matrices only the row it is asked for. -/
theorem head_rows {R R' : Nat} (r : Fin R → Fin R') (X S D : Mat R' 256) (X' S' D' : Mat R 256)
    (Te T1 T2 Te' T1' T2' : Mat 256 256) (b1 b2 g β b1' b2' g' β' : Fin 256 → EReal)
    (hX : ∀ p k, X' (ix2 p k) = X (ix2 (r p) k)) (hS : ∀ p k, S' (ix2 p k) = S (ix2 (r p) k))
    (hD : ∀ p k, D' (ix2 p k) = D (ix2 (r p) k))
    (hTe : Te' = Te) (hT1 : T1' = T1) (hT2 : T2' = T2) (hb1 : b1' = b1) (hb2 : b2' = b2) (hg : g' = g) (hβ : β' = β)
    (p : Fin R) (q : Fin 256) :
    head X' S' D' Te' T1' T2' b1' b2' g' β' (ix2 p q) = head X S D Te T1 T2 b1 b2 g β (ix2 (r p) q) := by
  subst hTe hT1 hT2 hb1 hb2 hg hβ
  rw [head_ix2, head_ix2, show (fun k => X' (ix2 p k)) = fun k => X (ix2 (r p) k) from funext (hX p),
    show (fun k => S' (ix2 p k)) = fun k => S (ix2 (r p) k) from funext (hS p),
    show (fun k => D' (ix2 p k)) = fun k => D (ix2 (r p) k) from funext (hD p)]

/-- The printed index maps, decided over the grid: the three row-blocked inputs and the output are at block (t, 0); the
    weights and the rows are at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

theorem N_eq : cfg1.N = 100 := N_1

/-- Row p of the block at point t is row 3000 t + p of the array. -/
def rowAt (t : Fin cfg1.N) (p : Fin 3000) : Fin 300000 :=
  ⟨t.val * 3000 + p.val, by have := t.isLt; have := p.isLt; have := N_eq; omega⟩

/-- Where the output's block index lands in the array. -/
theorem emb_out (t : Fin cfg1.N) (j : S3000x256.Idx) :
    ((cfg1.win 10).blk t).view.emb j = ix2 (rowAt t (j 0)) (j 1) := by
  obtain ⟨e00, e01, e10, e11, e20, e21, e30, e31, e40, e41, e50, e51, e60, e61, e70, e71, e80, e81, e90, e91, eA0, eA1⟩ := idx_facts t
  funext a; apply Fin.ext
  match a with
  | ⟨0, _⟩ => show win1_10.index t (0 : Fin 2) * 3000 + 1 * (j 0).val = t.val * 3000 + (j 0).val; omega
  | ⟨1, _⟩ => show win1_10.index t (1 : Fin 2) * 256 + 1 * (j 1).val = (j 1).val; omega

/-- The three row-blocked inputs' blocks are the arrays' rows 3000 t …. -/
theorem blk_edge (c : Dev nD) (t : Fin cfg1.N) (p : Fin 3000) (k : Fin 256) :
    iblk1 V c 0 t (ix2 p k) = V c main_arg0 (ix2 (rowAt t p) k) := by
  obtain ⟨e00, e01, e10, e11, e20, e21, e30, e31, e40, e41, e50, e51, e60, e61, e70, e71, e80, e81, e90, e91, eA0, eA1⟩ := idx_facts t
  show V c main_arg0 (((cfg1.win 0).blk t).view.emb (ix2 p k)) = V c main_arg0 (ix2 (rowAt t p) k)
  refine congrArg (V c main_arg0) ?_
  funext a; apply Fin.ext
  match a with
  | ⟨0, _⟩ => show win1_0.index t (0 : Fin 2) * 3000 + 1 * p.val = t.val * 3000 + p.val; omega
  | ⟨1, _⟩ => show win1_0.index t (1 : Fin 2) * 256 + 1 * k.val = k.val; omega

theorem blk_src (c : Dev nD) (t : Fin cfg1.N) (p : Fin 3000) (k : Fin 256) :
    iblk1 V c 1 t (ix2 p k) = V c main_call0_v16 (ix2 (rowAt t p) k) := by
  obtain ⟨e00, e01, e10, e11, e20, e21, e30, e31, e40, e41, e50, e51, e60, e61, e70, e71, e80, e81, e90, e91, eA0, eA1⟩ := idx_facts t
  show V c main_call0_v16 (((cfg1.win 1).blk t).view.emb (ix2 p k)) = V c main_call0_v16 (ix2 (rowAt t p) k)
  refine congrArg (V c main_call0_v16) ?_
  funext a; apply Fin.ext
  match a with
  | ⟨0, _⟩ => show win1_1.index t (0 : Fin 2) * 3000 + 1 * p.val = t.val * 3000 + p.val; omega
  | ⟨1, _⟩ => show win1_1.index t (1 : Fin 2) * 256 + 1 * k.val = k.val; omega

theorem blk_dst (c : Dev nD) (t : Fin cfg1.N) (p : Fin 3000) (k : Fin 256) :
    iblk1 V c 2 t (ix2 p k) = V c main_call0_v17 (ix2 (rowAt t p) k) := by
  obtain ⟨e00, e01, e10, e11, e20, e21, e30, e31, e40, e41, e50, e51, e60, e61, e70, e71, e80, e81, e90, e91, eA0, eA1⟩ := idx_facts t
  show V c main_call0_v17 (((cfg1.win 2).blk t).view.emb (ix2 p k)) = V c main_call0_v17 (ix2 (rowAt t p) k)
  refine congrArg (V c main_call0_v17) ?_
  funext a; apply Fin.ext
  match a with
  | ⟨0, _⟩ => show win1_2.index t (0 : Fin 2) * 3000 + 1 * p.val = t.val * 3000 + p.val; omega
  | ⟨1, _⟩ => show win1_2.index t (1 : Fin 2) * 256 + 1 * k.val = k.val; omega

/-- The three weight matrices are staged whole. -/
theorem blk_we (c : Dev nD) (t : Fin cfg1.N) : (iblk1 V c 3 t : Mat 256 256) = V c main_call0_v1 := by
  obtain ⟨e00, e01, e10, e11, e20, e21, e30, e31, e40, e41, e50, e51, e60, e61, e70, e71, e80, e81, e90, e91, eA0, eA1⟩ := idx_facts t
  funext y
  show V c main_call0_v1 (((cfg1.win 3).blk t).view.emb y) = V c main_call0_v1 y
  refine congrArg (V c main_call0_v1) ?_
  funext a; apply Fin.ext
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem blk_w1 (c : Dev nD) (t : Fin cfg1.N) : (iblk1 V c 4 t : Mat 256 256) = V c main_call0_v7 := by
  obtain ⟨e00, e01, e10, e11, e20, e21, e30, e31, e40, e41, e50, e51, e60, e61, e70, e71, e80, e81, e90, e91, eA0, eA1⟩ := idx_facts t
  funext y
  show V c main_call0_v7 (((cfg1.win 4).blk t).view.emb y) = V c main_call0_v7 y
  refine congrArg (V c main_call0_v7) ?_
  funext a; apply Fin.ext
  match a with
  | ⟨0, _⟩ => show win1_4.index t (0 : Fin 2) * 256 + 1 * (y 0).val = (y 0).val; omega
  | ⟨1, _⟩ => show win1_4.index t (1 : Fin 2) * 256 + 1 * (y 1).val = (y 1).val; omega

theorem blk_w2 (c : Dev nD) (t : Fin cfg1.N) : (iblk1 V c 6 t : Mat 256 256) = V c main_call0_v9 := by
  obtain ⟨e00, e01, e10, e11, e20, e21, e30, e31, e40, e41, e50, e51, e60, e61, e70, e71, e80, e81, e90, e91, eA0, eA1⟩ := idx_facts t
  funext y
  show V c main_call0_v9 (((cfg1.win 6).blk t).view.emb y) = V c main_call0_v9 y
  refine congrArg (V c main_call0_v9) ?_
  funext a; apply Fin.ext
  match a with
  | ⟨0, _⟩ => show win1_6.index t (0 : Fin 2) * 256 + 1 * (y 0).val = (y 0).val; omega
  | ⟨1, _⟩ => show win1_6.index t (1 : Fin 2) * 256 + 1 * (y 1).val = (y 1).val; omega

/-- The four rows are staged whole. -/
theorem blk_b1 (c : Dev nD) (t : Fin cfg1.N) : (iblk1 V c 5 t : Mat 1 256) = V c main_call0_v11 := by
  obtain ⟨e00, e01, e10, e11, e20, e21, e30, e31, e40, e41, e50, e51, e60, e61, e70, e71, e80, e81, e90, e91, eA0, eA1⟩ := idx_facts t
  funext y
  show V c main_call0_v11 (((cfg1.win 5).blk t).view.emb y) = V c main_call0_v11 y
  refine congrArg (V c main_call0_v11) ?_
  funext a; apply Fin.ext
  match a with
  | ⟨0, _⟩ => show win1_5.index t (0 : Fin 2) * 1 + 1 * (y 0).val = (y 0).val; omega
  | ⟨1, _⟩ => show win1_5.index t (1 : Fin 2) * 256 + 1 * (y 1).val = (y 1).val; omega

theorem blk_b2 (c : Dev nD) (t : Fin cfg1.N) : (iblk1 V c 7 t : Mat 1 256) = V c main_call0_v12 := by
  obtain ⟨e00, e01, e10, e11, e20, e21, e30, e31, e40, e41, e50, e51, e60, e61, e70, e71, e80, e81, e90, e91, eA0, eA1⟩ := idx_facts t
  funext y
  show V c main_call0_v12 (((cfg1.win 7).blk t).view.emb y) = V c main_call0_v12 y
  refine congrArg (V c main_call0_v12) ?_
  funext a; apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega

theorem blk_g (c : Dev nD) (t : Fin cfg1.N) : (iblk1 V c 8 t : Mat 1 256) = V c main_call0_v13 := by
  obtain ⟨e00, e01, e10, e11, e20, e21, e30, e31, e40, e41, e50, e51, e60, e61, e70, e71, e80, e81, e90, e91, eA0, eA1⟩ := idx_facts t
  funext y
  show V c main_call0_v13 (((cfg1.win 8).blk t).view.emb y) = V c main_call0_v13 y
  refine congrArg (V c main_call0_v13) ?_
  funext a; apply Fin.ext
  match a with
  | ⟨0, _⟩ => show win1_8.index t (0 : Fin 2) * 1 + 1 * (y 0).val = (y 0).val; omega
  | ⟨1, _⟩ => show win1_8.index t (1 : Fin 2) * 256 + 1 * (y 1).val = (y 1).val; omega

theorem blk_be (c : Dev nD) (t : Fin cfg1.N) : (iblk1 V c 9 t : Mat 1 256) = V c main_call0_v14 := by
  obtain ⟨e00, e01, e10, e11, e20, e21, e30, e31, e40, e41, e50, e51, e60, e61, e70, e71, e80, e81, e90, e91, eA0, eA1⟩ := idx_facts t
  funext y
  show V c main_call0_v14 (((cfg1.win 9).blk t).view.emb y) = V c main_call0_v14 y
  refine congrArg (V c main_call0_v14) ?_
  funext a; apply Fin.ext
  match a with
  | ⟨0, _⟩ => show win1_9.index t (0 : Fin 2) * 1 + 1 * (y 0).val = (y 0).val; omega
  | ⟨1, _⟩ => show win1_9.index t (1 : Fin 2) * 256 + 1 * (y 1).val = (y 1).val; omega

/-- The whole-array function the output ends at. -/
abbrev G (c : Dev nD) : Mat 300000 256 :=
  head (R := 300000) (V c main_arg0) (V c main_call0_v16) (V c main_call0_v17) (V c main_call0_v1) (V c main_call0_v7)
    (V c main_call0_v9) (row (V c main_call0_v11)) (row (V c main_call0_v12)) (row (V c main_call0_v13))
    (row (V c main_call0_v14))

/-- What point t writes back is rows 3000 t … of `G`. -/
theorem flushed_eq (c : Dev nD) (t : Fin cfg1.N) :
    (dat1 V c).flushed 10 t = ((cfg1.win 10).blk t).view.read (Elt Ideal) (G V c) := by
  show (cfg1.win 10).cut (grid1.coords t) ((dat1 V c).after 10 t) = _
  rw [after1_10]
  unfold out1_10
  rw [View.canon_unit_zero hz]
  simp only [View.ld_unit_zero (S := S3000x256) hz, View.ld_unit_zero (S := S256x256) hz, View.ld_unit_zero (S := S1x256) hz]
  rw [Pay1.body_eq_head]
  funext j
  show head (R := 3000) (iblk1 V c 0 t) (iblk1 V c 1 t) (iblk1 V c 2 t) (iblk1 V c 3 t) (iblk1 V c 4 t) (iblk1 V c 6 t)
      (row (iblk1 V c 5 t)) (row (iblk1 V c 7 t)) (row (iblk1 V c 8 t)) (row (iblk1 V c 9 t)) j
    = G V c (((cfg1.win 10).blk t).view.emb j)
  rw [emb_out t j, eq_ix2 j]
  exact head_rows (rowAt t) _ _ _ _ _ _ _ _ _ _ _ _ _ _ _ _ _ _ _ _
    (blk_edge V c t) (blk_src V c t) (blk_dst V c t) (blk_we V c t) (blk_w1 V c t) (blk_w2 V c t)
    (congrArg row (blk_b1 V c t)) (congrArg row (blk_b2 V c t)) (congrArg row (blk_g V c t)) (congrArg row (blk_be V c t))
    (j 0) (j 1)

/-- An index of the array is in point t's block iff each coordinate is in the block's range on its axis. -/
theorem mem_blk (t : Fin cfg1.N) (i : S300000x256.Idx) :
    i ∈ ((cfg1.win 10).blk t).view.set ↔ ∀ a : Fin 2, win1_10.index t a * S3000x256.size a ≤ (i a).val
      ∧ (i a).val < win1_10.index t a * S3000x256.size a + S3000x256.size a := by
  show i ∈ ((View.whole main_v0).slice (win1_10.rect t)).set ↔ _
  rw [View.set_slice_whole, Rect.mem_set_unit]
  exact Iff.rfl

/-- Every index of the array is in some point's block: row r is in the block of point r / 3000. -/
theorem cover (i : S300000x256.Idx) :
    ∃ t : Fin cfg1.N, (cfg1.win 10).flush t = true ∧ i ∈ ((cfg1.win 10).blk t).view.set := by
  have hi0 : (i 0).val < 300000 := (i 0).isLt
  have hi1 : (i 1).val < 256 := (i 1).isLt
  have hN := N_eq
  let t : Fin cfg1.N := ⟨(i 0).val / 3000, by omega⟩
  obtain ⟨e00, e01, e10, e11, e20, e21, e30, e31, e40, e41, e50, e51, e60, e61, e70, e71, e80, e81, e90, e91, eA0, eA1⟩ := idx_facts t
  refine ⟨t, flush1_10 t, ?_⟩
  rw [mem_blk]
  have ht : t.val = (i 0).val / 3000 := rfl
  intro a
  match a with
  | ⟨0, _⟩ => show win1_10.index t (0 : Fin 2) * 3000 ≤ (i 0).val ∧ (i 0).val < win1_10.index t (0 : Fin 2) * 3000 + 3000; omega
  | ⟨1, _⟩ => show win1_10.index t (1 : Fin 2) * 256 ≤ (i 1).val ∧ (i 1).val < win1_10.index t (1 : Fin 2) * 256 + 256; omega

/-- The output array: every edge's row through `headRow`, of the arrays the region finds at entry. -/
theorem final_out (c : Dev nD) :
    (dat1 V c).arrAt 10 cfg1.N
      = head (R := 300000) (V c main_arg0) (V c main_call0_v16) (V c main_call0_v17) (V c main_call0_v1) (V c main_call0_v7)
          (V c main_call0_v9) (row (V c main_call0_v11)) (row (V c main_call0_v12)) (row (V c main_call0_v13))
          (row (V c main_call0_v14)) :=
  (dat1 V c).arrAt_eq_of_cover 10 (G V c) (fun t _ => flushed_eq V c t) cover

end Cert.KernelIdeal.Region1

end
-- ==== Proof.Mask.lean ====
/-
  Taking rows by indices that are all in range. If every index i satisfies −100000 ≤ i < 100000 as a signed 32-bit integer,
  then the row number w = (i < 0 ? i + 100000 : i) satisfies 0 ≤ w ≤ 99999: for i ≥ 0 it is i itself, and for i < 0 the sum
  i + 100000 lies in [0, 100000) and does not wrap. So the range bit is 1 in every row, its reduction over the one-entry second
  axis is 1, the selection always takes the gathered row, and the filler word is never read.
-/
import proofs.«411138_j16844861735261_3_alg».proof.Proof.TakeFill
import Idealize.ShloMosaic.Lib.ValueIdx
import Idealize.ShloMosaic.Lib.ReduceAll
import Idealize.ShloMosaic.Lib.StableHlo.Predicate

noncomputable section

namespace Cert.KernelIdeal.Take

open Idealize.ShloMosaic Idealize.ShloMosaic.ValueIdx Cert.KernelIdeal Cert.KernelIdeal.Gen

variable {F : FTy → Type} [FloatOps F]

/-- The row number of one index word: a < 0 ? a + 100000 : a. -/
def wrapWord (a : BitVec 32) : BitVec 32 :=
  Scalar.select (IntOp.cmpi .slt a 0#32) (IntOp.addi a 100000#32) a

/-- One word: for −100000 ≤ a < 100000 the row number w = wrapWord a has 0 ≤ w ≤ 99999. When a < 0 the sum a + 100000 lies
    in [0, 100000), far inside the signed range, so the 32-bit addition is the integer one. -/
theorem wrapWord_inRange (a : BitVec 32) (hlo : (-100000 : Int) ≤ a.toInt) (hhi : a.toInt < 100000) :
    IntOp.cmpi .sge (wrapWord a) 0#32 = 1#1 ∧ IntOp.cmpi .sle (wrapWord a) 99999#32 = 1#1 := by
  have h0 : (0#32 : BitVec 32).toInt = 0 := by decide
  have h1 : (99999#32 : BitVec 32).toInt = 99999 := by decide
  have h2 : (100000#32 : BitVec 32).toInt = 100000 := by decide
  rw [IntOp.cmpi_sge, IntOp.cmpi_sle, h0, h1]
  unfold wrapWord
  by_cases hneg : IntOp.cmpi .slt a 0#32 = 1#1
  · rw [hneg, select_one]
    have hlt : a.toInt < 0 := by rw [IntOp.cmpi_slt, h0] at hneg; exact hneg
    have hs : (IntOp.addi a 100000#32).toInt = a.toInt + 100000 := by
      unfold IntOp.addi
      rw [BitVec.toInt_add, h2]
      exact Int.bmod_eq_of_le_mul_two (by omega) (by omega)
    rw [hs]
    omega
  · rw [eq_zero_of_ne_one hneg, select_zero]
    have hge : 0 ≤ a.toInt := by
      rw [IntOp.cmpi_slt, h0] at hneg
      omega
    omega

/-- A left fold by `and` from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], init, hi, _ => hi
  | a :: l, init, hi, hf => by
    rw [List.foldl_cons]
    exact foldl_andi_all_one f l _ (IntOp.andi_eq_one.2 ⟨hi, hf a List.mem_cons_self⟩)
      (fun n hn => hf n (List.mem_cons_of_mem _ hn))

/-- The selection idx < 0 ? idx + 100000 : idx reads, at any position, the row number of the index word at a position. -/
theorem wrapSel_apply (idx : IVec S300000 32) (k : S300000.Idx) :
    ∃ e : Fin 300000,
      select (cmpi .slt idx (broadcastInDim S300000 ![] bcast_S_S300000 (constantI S_ 32 0#32)))
        (addi idx (broadcastInDim S300000 ![] bcast_S_S300000 (constantI S_ 32 100000#32))) idx k
        = wrapWord (idx (ix1 e)) :=
  ⟨k 0, congrArg (fun k' => wrapWord (idx k')) (eq_ix1 (n := 300000) k)⟩

/-- Every entry of the column of row numbers is the row number of one of the index words. -/
theorem wrapCol_apply (idx : IVec S300000 32) (i : S300000x1.Idx) :
    ∃ e : Fin 300000, wrapCol idx i = wrapWord (idx (ix1 e)) := by
  unfold wrapCol
  simp only [broadcastInDim]
  exact wrapSel_apply idx _

/-- With every index in [−100000, 100000) the range bit is 1 at every entry. -/
theorem inRange_wrapCol_eq_one (idx : IVec S300000 32)
    (h : ∀ e : Fin 300000, (-100000 : Int) ≤ (idx (ix1 e)).toInt ∧ (idx (ix1 e)).toInt < 100000)
    (j : S300000x256.Idx) : inRange (wrapCol idx) j = 1#1 := by
  unfold inRange
  simp only [broadcastInDim]
  rw [Host.reduce_eq_foldl]
  refine foldl_andi_all_one _ _ _ rfl (fun i _ => ?_)
  show IntOp.andi (IntOp.cmpi .sge (wrapCol idx i) 0#32) (IntOp.cmpi .sle (wrapCol idx i) 99999#32) = 1#1
  obtain ⟨e, he⟩ := wrapCol_apply idx i
  rw [he]
  exact IntOp.andi_eq_one.2 (wrapWord_inRange _ (h e).1 (h e).2)

/-- With every index in [−100000, 100000) the rows taken are the gathered rows. -/
theorem takeFill_eq_gather (tbl : FVec F S100000x256 .f32) (idx : IVec S300000 32)
    (h : ∀ e : Fin 300000, (-100000 : Int) ≤ (idx (ix1 e)).toInt ∧ (idx (ix1 e)).toInt < 100000) :
    takeFill tbl idx = Host.gather gather_S100000x256_S300000x1_S300000x256_1_0_n_n_0_1_1256 tbl (wrapCol idx) := by
  funext j
  unfold takeFill
  rw [select_apply, inRange_wrapCol_eq_one idx h j, select_one]

end Cert.KernelIdeal.Take

end
-- ==== Proof.PreIdx.lean ====
/-
  What the precondition says about the two index vectors. The precondition is a conjunction, computed as one bit: every
  float input finite, and for each of the two index vectors every entry at least −100000 and below 100000 as a signed
  32-bit integer. Each "every entry" is a reduction of a vector of bits by "and" from the bit 1, so it is 1 exactly when
  every entry's bit is 1; a conjunction of bits is 1 exactly when each is. Read at one entry, the two comparisons are the
  two bounds on the entry's signed value.
-/
import proofs.«411138_j16844861735261_3_alg».proof.Pre_finite_inputs
import proofs.«411138_j16844861735261_3_alg».proof.Proof.Gen.Pre_finite_inputs
import Idealize.ShloMosaic.Lib.ValueIdx
import Idealize.ShloMosaic.Lib.ReduceAll
import Idealize.ShloMosaic.Lib.StableHlo.Predicate

noncomputable section

namespace Cert.PreIdx

open Idealize.ShloMosaic Idealize.ShloMosaic.ValueIdx Cert.Pre_finite_inputs

variable {F : FTy → Type} [FloatOps F]

/-- The shape with no axes has one index. -/
instance : Subsingleton S_.Idx := ⟨fun a b => funext fun d => d.elim0⟩

/-- The word 4294867296 read as a signed 32-bit integer is −100000. -/
theorem toInt_lo : (4294867296#32 : BitVec 32).toInt = -100000 := by decide

/-- The word 100000 read as a signed 32-bit integer is 100000. -/
theorem toInt_hi : (100000#32 : BitVec 32).toInt = 100000 := by decide

/-- One index vector. If "every entry ≥ −100000" and "every entry < 100000", each a reduction by "and" from the bit 1 of the
    entrywise signed comparison against the constant vector, are both the bit 1, then entry e lies in [−100000, 100000):
    a reduction by "and" that is 1 met a 1 at every entry, and a signed comparison's bit is 1 exactly when the order holds
    between the signed values. -/
theorem range_of_bits (v : IVec S300000 32)
    (hb : S_.BroadcastsInDim S300000 (![] : Fin 0 → Fin S300000.rank)) (hr : S300000.ReducesTo [0] S_) (hu : 0 < S_.numel)
    (hge : Host.reduce IntOp.andi (cmpi .sge v (broadcastInDim S300000 ![] hb (constantI S_ 32 4294867296#32)))
      (constantI S_ 1 1#1) hr hu ix0 = 1#1)
    (hlt : Host.reduce IntOp.andi (cmpi .slt v (broadcastInDim S300000 ![] hb (constantI S_ 32 100000#32)))
      (constantI S_ 1 1#1) hr hu ix0 = 1#1)
    (e : Fin 300000) : (-100000 : Int) ≤ (v (ix1 e)).toInt ∧ (v (ix1 e)).toInt < 100000 := by
  have g := Host.reduce_andi_all _ _ hr hu ix0 hge (ix1 e)
  have l := Host.reduce_andi_all _ _ hr hu ix0 hlt (ix1 e)
  -- the constant vector is the constant at every entry
  change IntOp.cmpi .sge (v (ix1 e)) (4294867296#32) = 1#1 at g
  change IntOp.cmpi .slt (v (ix1 e)) (100000#32) = 1#1 at l
  rw [IntOp.cmpi_sge, toInt_lo] at g
  rw [IntOp.cmpi_slt, toInt_hi] at l
  exact ⟨g, l⟩

/-- The precondition decoded at entry e of both index vectors: the conjunction is 1, so each of its last four conjuncts
    is, and those are the two bounds on each vector. -/
theorem both_range (a0 : FVec F S300000x256 .f32) (a1 : FVec F S100000x256 .f32) (a2 a3 : IVec S300000 32)
    (a4 a5 a6 : FVec F S256x256 .f32) (a7 : FVec F S256 .f32) (a8 : FVec F S256x256 .f32) (a9 : FVec F S256 .f32)
    (a10 : FVec F S256x256 .f32) (a11 a12 a13 : FVec F S256 .f32)
    (h : fn (F := F) a0 a1 a2 a3 a4 a5 a6 a7 a8 a9 a10 a11 a12 a13 = fun _ => 1#1) (e : Fin 300000) :
    ((-100000 : Int) ≤ (a2 (ix1 e)).toInt ∧ (a2 (ix1 e)).toInt < 100000)
      ∧ ((-100000 : Int) ≤ (a3 (ix1 e)).toInt ∧ (a3 (ix1 e)).toInt < 100000) := by
  have e0 := congrFun h ix0
  dsimp only [fn, fn_part1, fn_part2, fn_part3, fn_part4] at e0
  simp only [andi, IntOp.andi_eq_one] at e0
  obtain ⟨⟨⟨⟨-, h2ge⟩, h2lt⟩, h3ge⟩, h3lt⟩ := e0
  exact ⟨range_of_bits a2 _ _ _ h2ge h2lt e, range_of_bits a3 _ _ _ h3ge h3lt e⟩

/-- Under the precondition every source index is in [−100000, 100000). -/
theorem src_range (a0 : FVec F S300000x256 .f32) (a1 : FVec F S100000x256 .f32) (a2 a3 : IVec S300000 32)
    (a4 a5 a6 : FVec F S256x256 .f32) (a7 : FVec F S256 .f32) (a8 : FVec F S256x256 .f32) (a9 : FVec F S256 .f32)
    (a10 : FVec F S256x256 .f32) (a11 a12 a13 : FVec F S256 .f32)
    (h : fn (F := F) a0 a1 a2 a3 a4 a5 a6 a7 a8 a9 a10 a11 a12 a13 = fun _ => 1#1) (e : Fin 300000) :
    (-100000 : Int) ≤ (a2 (ix1 e)).toInt ∧ (a2 (ix1 e)).toInt < 100000 :=
  (both_range a0 a1 a2 a3 a4 a5 a6 a7 a8 a9 a10 a11 a12 a13 h e).1

/-- Under the precondition every destination index is in [−100000, 100000). -/
theorem dst_range (a0 : FVec F S300000x256 .f32) (a1 : FVec F S100000x256 .f32) (a2 a3 : IVec S300000 32)
    (a4 a5 a6 : FVec F S256x256 .f32) (a7 : FVec F S256 .f32) (a8 : FVec F S256x256 .f32) (a9 : FVec F S256 .f32)
    (a10 : FVec F S256x256 .f32) (a11 a12 a13 : FVec F S256 .f32)
    (h : fn (F := F) a0 a1 a2 a3 a4 a5 a6 a7 a8 a9 a10 a11 a12 a13 = fun _ => 1#1) (e : Fin 300000) :
    (-100000 : Int) ≤ (a3 (ix1 e)).toInt ∧ (a3 (ix1 e)).toInt < 100000 :=
  (both_range a0 a1 a2 a3 a4 a5 a6 a7 a8 a9 a10 a11 a12 a13 h e).2

end Cert.PreIdx

end
-- ==== Proof.Bridge.lean ====
/-
  The two programs' results are one function of the arguments.

  The kernel's result buffer ends at the edge-head region's output array, which is every edge's row through
  `Cert.EdgeSpec.headRow` of the arrays that region finds at entry. Read back to the launch memory those are: the edge
  features; the rows of the two node tables taken by the two index vectors, which under the precondition (every index in
  [−100000, 100000)) are the gathered rows, the filler never read; the three transposed weight matrices, their rounding to
  the narrow format changing nothing; and the four vectors, each reshaped to a row and read back at its column. The node
  tables are node features times a transposed weight matrix (the destination one plus the bias along each row): the kernel
  forms both at once against the two matrices side by side and cuts the product in two. The reference's last stage is the same
  `head` of the same arrays, its gathers applied to the same tables and the same row numbers.
-/
import proofs.«411138_j16844861735261_3_alg».proof.Defs
import proofs.«411138_j16844861735261_3_alg».proof.Proof.KernelIdealRun
import proofs.«411138_j16844861735261_3_alg».proof.Proof.Boundary
import proofs.«411138_j16844861735261_3_alg».proof.Proof.Region0
import proofs.«411138_j16844861735261_3_alg».proof.Proof.Region1
import proofs.«411138_j16844861735261_3_alg».proof.Proof.Pay0
import proofs.«411138_j16844861735261_3_alg».proof.Proof.Mask
import proofs.«411138_j16844861735261_3_alg».proof.Proof.PreIdx
import proofs.«411138_j16844861735261_3_alg».proof.Proof.RefValue
import proofs.«411138_j16844861735261_3_alg».proof.Proof.EdgeSpec
import Idealize.ShloMosaic.Lib.ValueIdx
import Idealize.ShloMosaic.Lib.Pipeline.Value

set_option maxRecDepth 16384

noncomputable section

open scoped BigOperators

namespace Cert.Bridge

open Idealize.ShloMosaic Idealize.ShloMosaic.TcCoe Idealize.ShloMosaic.ValueIdx Idealize.SL.Sem
open Cert.EdgeSpec Cert.LibPlainDot
open Cert.KernelIdeal Cert.KernelIdeal.Gen Cert.KernelIdeal.GenP Cert.KernelIdeal.Take Cert.KernelIdeal.Boundary

/-- `head` of equal arguments. -/
theorem head_congr {R : Nat} {X X' S S' D D' : Mat R 256} {Te Te' T1 T1' T2 T2' : Mat 256 256}
    {b1 b1' b2 b2' g g' β β' : Fin 256 → EReal}
    (hX : X = X') (hS : S = S') (hD : D = D') (hTe : Te = Te') (hT1 : T1 = T1') (hT2 : T2 = T2')
    (hb1 : b1 = b1') (hb2 : b2 = b2') (hg : g = g') (hβ : β = β') :
    head X S D Te T1 T2 b1 b2 g β = head X' S' D' Te' T1' T2' b1' b2' g' β' := by
  subst hX hS hD hTe hT1 hT2 hb1 hb2 hg hβ; rfl

/-- Rounding a matrix to the narrow format changes nothing on the extended reals. -/
theorem narrow_eq (x : FVec Ideal S256x256 .f32) (h : FTy.bits .bf16 < FTy.bits .f32) :
    (truncf .bf16 x h : Mat 256 256) = x :=
  funext fun i => truncf_apply x h i

/-- A length-256 vector reshaped to a 1 × 256 row reads, at column q, the vector at q. -/
theorem row_of_vec (v : FVec Ideal S256 .f32) (h : S256.ShapeCasts S1x256) : row (shapeCast S1x256 v h) = vec v := by
  funext q
  show shapeCast S1x256 v h (ix2 (0 : Fin 1) q) = v (ix1 q)
  exact shapeCast_apply v h _ _ (by
    rw [Shape.rowMajor_val_two, Shape.rowMajor_val_one]
    show q.val = (0 : Fin 1).val * 256 + q.val
    simp)

variable (m : (ℓ : Loc nD τ sig) → Buf (Elt Ideal) ℓ) (ρ : Dev nD → PrngReg)

/-- The source-node table: node features times the transposed source weights. -/
abbrev tblS (c : Dev nD) : Mat 100000 256 :=
  matProd (M := 100000) (K := 256) (N := 256) (m ((c : Thread nD τ).loc main_arg1)) (transpose S256x256 [1, 0] (m ((c : Thread nD τ).loc main_arg5)) transposes_S256x256_S256x256_1_0)

/-- The destination-node table: node features times the transposed destination weights, plus the bias along each row. -/
abbrev tblD (c : Dev nD) : Mat 100000 256 :=
  fun y => matProd (M := 100000) (K := 256) (N := 256) (m ((c : Thread nD τ).loc main_arg1)) (transpose S256x256 [1, 0] (m ((c : Thread nD τ).loc main_arg6)) transposes_S256x256_S256x256_1_0) y + vec (m ((c : Thread nD τ).loc main_arg7)) (y 1)

/-- The result both programs end at, as a term of the launch memory. -/
def result (c : Dev nD) : Buf (Elt Ideal) ((c : Thread nD τ).loc main_v0) :=
  head (R := 300000) (m ((c : Thread nD τ).loc main_arg0))
    (Host.gather gather_S100000x256_S300000x1_S300000x256_1_0_n_n_0_1_1256 (tblS m c) (wrapCol (m ((c : Thread nD τ).loc main_arg2))))
    (Host.gather gather_S100000x256_S300000x1_S300000x256_1_0_n_n_0_1_1256 (tblD m c) (wrapCol (m ((c : Thread nD τ).loc main_arg3))))
    (transpose S256x256 [1, 0] (m ((c : Thread nD τ).loc main_arg4)) transposes_S256x256_S256x256_1_0) (transpose S256x256 [1, 0] (m ((c : Thread nD τ).loc main_arg8)) transposes_S256x256_S256x256_1_0) (transpose S256x256 [1, 0] (m ((c : Thread nD τ).loc main_arg10)) transposes_S256x256_S256x256_1_0)
    (vec (m ((c : Thread nD τ).loc main_arg9))) (vec (m ((c : Thread nD τ).loc main_arg11))) (vec (m ((c : Thread nD τ).loc main_arg12))) (vec (m ((c : Thread nD τ).loc main_arg13)))

/-! ## The kernel's side -/

/-- The node-projection region's first output is the source-node table. -/
theorem table_src (c : Dev nD) : (dat0 (V1 m ρ) c).arrAt 3 cfg0.N = tblS m c := by
  rw [Region0.final_src (V1 m ρ) c, V1_node m ρ c, V1_mat m ρ c]
  exact Pay0.projL_sideBySide _ _ _

/-- … and its second output the destination-node table. -/
theorem table_dst (c : Dev nD) : (dat0 (V1 m ρ) c).arrAt 4 cfg0.N = tblD m c := by
  rw [Region0.final_dst (V1 m ρ) c, V1_node m ρ c, V1_mat m ρ c, V1_bias m ρ c, row_of_vec]
  exact Pay0.projR_sideBySide _ _ _ _

variable [hPre : Cert.Pre_finite_inputs.Facts]

/-- Under the precondition the rows taken by the source indices are the gathered rows of the source-node table. -/
theorem gathered_src (hpre : Cert.Pre_KernelIdeal m) (c : Dev nD) :
    (V3 m ρ c main_call0_v16 : Mat 300000 256) = Host.gather gather_S100000x256_S300000x1_S300000x256_1_0_n_n_0_1_1256 (tblS m c) (wrapCol (m ((c : Thread nD τ).loc main_arg2))) := by
  rw [V3_gs m ρ c, table_src m ρ c]
  exact takeFill_eq_gather _ _ fun e => Cert.PreIdx.src_range _ _ _ _ _ _ _ _ _ _ _ _ _ _ (hpre c) e

theorem gathered_dst (hpre : Cert.Pre_KernelIdeal m) (c : Dev nD) :
    (V3 m ρ c main_call0_v17 : Mat 300000 256) = Host.gather gather_S100000x256_S300000x1_S300000x256_1_0_n_n_0_1_1256 (tblD m c) (wrapCol (m ((c : Thread nD τ).loc main_arg3))) := by
  rw [V3_gd m ρ c, table_dst m ρ c]
  exact takeFill_eq_gather _ _ fun e => Cert.PreIdx.dst_range _ _ _ _ _ _ _ _ _ _ _ _ _ _ (hpre c) e

/-- The kernel's result buffer ends at `result`. -/
theorem kernel_value (hpre : Cert.Pre_KernelIdeal m) (c : Dev nD) :
    W4 m ρ c (Proc.devRef .tc main_v0) = result m c :=
  (W4_arr m ρ c 10).trans ((Region1.final_out (V3 m ρ) c).trans (head_congr
    (V3_edge m ρ c) (gathered_src m ρ hpre c) (gathered_dst m ρ hpre c)
    ((V3_we m ρ c).trans (narrow_eq _ _)) ((V3_w1 m ρ c).trans (narrow_eq _ _)) ((V3_w2 m ρ c).trans (narrow_eq _ _))
    ((congrArg row (V3_b1 m ρ c)).trans (row_of_vec _ _)) ((congrArg row (V3_b2 m ρ c)).trans (row_of_vec _ _))
    ((congrArg row (V3_g m ρ c)).trans (row_of_vec _ _)) ((congrArg row (V3_be m ρ c)).trans (row_of_vec _ _))))

end Cert.Bridge

end
-- ==== Proof.lean ====
/-
  The certificate: the node-to-edge message head (two node projections, their rows gathered onto the edges, an edge projection,
  two silu layers and a layer normalisation) computed by two pallas_calls with host gathers between them, against the same
  computation in plain jnp, on the extended reals.

  Statement as edited: besides finiteness of the float inputs the precondition asks every entry of the two index vectors to lie
  in [−100000, 100000), the range in which indexing a 100000-row table is defined (a negative index counting from the end).
  Outside it the two programs differ: the kernel's take fills a row with a fixed word where the reference's gather clamps.

  Frames: the two kernel programs' are the generated frame certificates; the reference's is its generated run with the result
  dropped. The idealization's ledger is empty. The value: the kernel's run with its result named ends at the edge-head region's output array, which is
  `Cert.Bridge.result` of the launch memory (Bridge.lean); the reference's run ends at its last stage, which is every edge's row
  through the same row function (RefValue.lean) of the same tables, row numbers, weights and vectors.
-/
import proofs.«411138_j16844861735261_3_alg».proof.Defs
import proofs.«411138_j16844861735261_3_alg».proof.Proof.Gen.Kernel
import proofs.«411138_j16844861735261_3_alg».proof.Proof.Gen.Kernel.Skeleton
import proofs.«411138_j16844861735261_3_alg».proof.Proof.KernelLaunchP
import proofs.«411138_j16844861735261_3_alg».proof.Proof.Gen.Kernel.Points
import proofs.«411138_j16844861735261_3_alg».proof.Proof.KernelFrameP
import proofs.«411138_j16844861735261_3_alg».proof.Proof.Gen.KernelIdeal
import proofs.«411138_j16844861735261_3_alg».proof.Proof.Gen.KernelIdeal.Skeleton
import proofs.«411138_j16844861735261_3_alg».proof.Proof.KernelIdealLaunchP
import proofs.«411138_j16844861735261_3_alg».proof.Proof.Gen.KernelIdeal.Points
import proofs.«411138_j16844861735261_3_alg».proof.Proof.KernelIdealFrameP
import proofs.«411138_j16844861735261_3_alg».proof.Proof.KernelIdealRun
import proofs.«411138_j16844861735261_3_alg».proof.Proof.Gen.ReferenceIdeal
import proofs.«411138_j16844861735261_3_alg».proof.Proof.Gen.ReferenceIdeal.Run
import proofs.«411138_j16844861735261_3_alg».proof.Proof.Gen.ReferenceIdeal.Read
import proofs.«411138_j16844861735261_3_alg».proof.Proof.Gen.Pre_finite_inputs
import proofs.«411138_j16844861735261_3_alg».proof.Proof.RefValue
import proofs.«411138_j16844861735261_3_alg».proof.Proof.Bridge
import Idealize.ShloMosaic.Adequacy
import Idealize.ShloMosaic.Init

set_option maxRecDepth 16384

noncomputable section

namespace Cert.Proof

open Idealize.ShloMosaic Idealize.SL.Sem

/-- From memories that agree on the arguments, the reference's last stage is the term the kernel's result ends at: the same
    `head`, its two gathers applied to the node tables as plain products and to the same row numbers. -/
theorem ref_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (c : Dev Cert.KernelIdeal.nD) :
    Cert.ReferenceIdeal.Value.res_main_v60 m' c = Cert.Bridge.result m c := by
  obtain ⟨h0, h1, h2, h3, h4, h5, h6, h7, h8, h9, h10, h11, h12, h13⟩ := hagree c
  rw [Cert.ReferenceIdeal.Read.val_main_v60_eq, Cert.ReferenceIdeal.RefValue.result_eq_head,
    h0, h1, h2, h3, h4, h5, h6, h7, h8, h9, h10, h11, h12, h13]
  unfold Cert.Bridge.result
  refine Cert.Bridge.head_congr rfl ?_ ?_ rfl rfl rfl rfl rfl rfl rfl
  · unfold Cert.ReferenceIdeal.Read.val_main_v15
    rw [Cert.ReferenceIdeal.RefValue.src_table]
    rfl
  · unfold Cert.ReferenceIdeal.Read.val_main_v23
    rw [Cert.ReferenceIdeal.RefValue.dst_table]
    rfl

theorem frame_kernel : Cert.frame_Kernel (hKernel := Cert.Kernel.Gen.facts) (hPre_finite_inputs := Cert.Pre_finite_inputs.Gen.facts) :=
  fun m ρ _ => Cert.Kernel.GenP.frame m ρ

theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs run and end with one result: the kernel's run ends at `Cert.Bridge.result` of its launch
    memory under the precondition, the reference's at the same term of the arguments the two memories agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Bridge.result m c, ?_, ?_⟩
  · exact (θ_run Cert.KernelIdeal.defs _ _).mono
      (fun _ h c => ⟨(h c).1.trans (Cert.Bridge.kernel_value m ρ hpre c), (h c).2⟩)
      (Cert.KernelIdeal.GenP.run_named (F := Ideal) m ρ)
  · exact (θ_run Cert.ReferenceIdeal.defs _ _).mono
      (fun _ h c => ⟨(h c).1.trans (ref_value m m' hagree c), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
